-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_200" .f32 0x3BA3D70A#32 ((1 / 200 : ℝ) : EReal)
  ∧ IdealRules.truncf_extf.Statement Cert.KernelIdeal.S512x8x512 .f32 .bf16
  ∧ IdealRules.truncf_extf.Statement Cert.KernelIdeal.S512x512 .f32 .bf16
  ∧ IdealRules.truncf_extf.Statement Cert.KernelIdeal.S512x8x512 .f32 .bf16
  ∧ IdealRules.truncf_extf.Statement Cert.KernelIdeal.S512x512 .f32 .bf16
  ∧ IdealRules.truncf_extf.Statement Cert.KernelIdeal.S512x8x512 .f32 .bf16
  ∧ IdealRules.truncf_extf.Statement Cert.KernelIdeal.S512x512 .f32 .bf16
  ∧ IdealRules.truncf_extf.Statement Cert.KernelIdeal.S512x8x512 .f32 .bf16
  ∧ IdealRules.truncf_extf.Statement Cert.KernelIdeal.S512x512 .f32 .bf16
  ∧ IdealRules.truncf_extf.Statement Cert.KernelIdeal.S512x8x512 .f32 .bf16
  ∧ IdealRules.truncf_extf.Statement Cert.KernelIdeal.S512x512 .f32 .bf16
  ∧ IdealRules.truncf_extf.Statement Cert.KernelIdeal.S512x8x512 .f32 .bf16
  ∧ IdealRules.truncf_extf.Statement Cert.KernelIdeal.S512x512 .f32 .bf16
  ∧ IdealRules.truncf_extf.Statement Cert.KernelIdeal.S512x8x512 .f32 .bf16
  ∧ IdealRules.truncf_extf.Statement Cert.KernelIdeal.S512x512 .f32 .bf16
  ∧ IdealRules.truncf_extf.Statement Cert.KernelIdeal.S512x8x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x3 : Shape := ⟨2, ![1048576, 3]⟩
abbrev S500x3 : Shape := ⟨2, ![500, 3]⟩
abbrev S1048576x64 : Shape := ⟨2, ![1048576, 64]⟩
abbrev S_ : Shape := ⟨0, ![]⟩

class Facts : Prop where
  bcast_S_S1048576x3 : S_.BroadcastsInDim S1048576x3 (![] : Fin 0 → Fin S1048576x3.rank)
  reducesTo_S1048576x3_S_d0_1 : S1048576x3.ReducesTo [0, 1] S_
  h_S_ : 0 < S_.numel
  bcast_S_S500x3 : S_.BroadcastsInDim S500x3 (![] : Fin 0 → Fin S500x3.rank)
  reducesTo_S500x3_S_d0_1 : S500x3.ReducesTo [0, 1] S_
  bcast_S_S1048576x64 : S_.BroadcastsInDim S1048576x64 (![] : Fin 0 → Fin S1048576x64.rank)
  reducesTo_S1048576x64_S_d0_1 : S1048576x64.ReducesTo [0, 1] S_

variable [Facts]

def fn_part1 {F : FTy → Type} [FloatOps F] (main_arg3 : IVec S1048576x64 32) (main_v13 : IVec S_ 1) (main_v15 : IVec S1048576x64 1) (main_c_5 : IVec S_ 32) : IVec S_ 1 :=
  let main_v16 : IVec S1048576x64 32 := broadcastInDim S1048576x64 ![] bcast_S_S1048576x64 main_c_5
  let main_v17 : IVec S1048576x64 1 := cmpi .sle main_arg3 main_v16
  let main_v18 : IVec S1048576x64 1 := andi main_v15 main_v17
  let main_c_6 : IVec S_ 1 := constantI S_ 1 1#1
  let main_v19 : IVec S_ 1 := (fun x v => Host.reduce IntOp.andi x v reducesTo_S1048576x64_S_d0_1 h_S_) main_v18 main_c_6
  let main_v20 : IVec S_ 1 := andi main_v13 main_v19
  main_v20

def fn {F : FTy → Type} [FloatOps F] (main_arg0 : FVec F S1048576x3 .f32) (main_arg1 : FVec F S500x3 .f32) (main_arg2 : FVec F S500x3 .f32) (main_arg3 : IVec S1048576x64 32) : IVec S_ 1 :=
  let main_v0 : FVec F S1048576x3 .f32 := Host.absf main_arg0
  let main_cst : FVec F S_ .f32 := constant S_ .f32 0x7F800000#32
  let main_v1 : FVec F S1048576x3 .f32 := broadcastInDim S1048576x3 ![] bcast_S_S1048576x3 main_cst
  let main_v2 : IVec S1048576x3 1 := cmpf .olt main_v0 main_v1
  let main_c : IVec S_ 1 := constantI S_ 1 1#1
  let main_v3 : IVec S_ 1 := (fun x v => Host.reduce IntOp.andi x v reducesTo_S1048576x3_S_d0_1 h_S_) main_v2 main_c
  let main_v4 : FVec F S500x3 .f32 := Host.absf main_arg1
  let main_cst_0 : FVec F S_ .f32 := constant S_ .f32 0x7F800000#32
  let main_v5 : FVec F S500x3 .f32 := broadcastInDim S500x3 ![] bcast_S_S500x3 main_cst_0
  let main_v6 : IVec S500x3 1 := cmpf .olt main_v4 main_v5
  let main_c_1 : IVec S_ 1 := constantI S_ 1 1#1
  let main_v7 : IVec S_ 1 := (fun x v => Host.reduce IntOp.andi x v reducesTo_S500x3_S_d0_1 h_S_) main_v6 main_c_1
  let main_v8 : IVec S_ 1 := andi main_v3 main_v7
  let main_v9 : FVec F S500x3 .f32 := Host.absf main_arg2
  let main_cst_2 : FVec F S_ .f32 := constant S_ .f32 0x7F800000#32
  let main_v10 : FVec F S500x3 .f32 := broadcastInDim S500x3 ![] bcast_S_S500x3 main_cst_2
  let main_v11 : IVec S500x3 1 := cmpf .olt main_v9 main_v10
  let main_c_3 : IVec S_ 1 := constantI S_ 1 1#1
  let main_v12 : IVec S_ 1 := (fun x v => Host.reduce IntOp.andi x v reducesTo_S500x3_S_d0_1 h_S_) main_v11 main_c_3
  let main_v13 : IVec S_ 1 := andi main_v8 main_v12
  let main_c_4 : IVec S_ 32 := constantI S_ 32 0#32
  let main_v14 : IVec S1048576x64 32 := broadcastInDim S1048576x64 ![] bcast_S_S1048576x64 main_c_4
  let main_v15 : IVec S1048576x64 1 := cmpi .sge main_arg3 main_v14
  let main_c_5 : IVec S_ 32 := constantI S_ 32 500#32
  fn_part1 (F := F) main_arg3 main_v13 main_v15 main_c_5
-- ==== Kernel.lean ====
abbrev S1048576x3 : Shape := ⟨2, ![1048576, 3]⟩
abbrev S500x3 : Shape := ⟨2, ![500, 3]⟩
abbrev S1048576x64 : Shape := ⟨2, ![1048576, 64]⟩
abbrev S_ : Shape := ⟨0, ![]⟩
abbrev S512x3 : Shape := ⟨2, ![512, 3]⟩
abbrev S512 : Shape := ⟨1, ![512]⟩
abbrev S512x1 : Shape := ⟨2, ![512, 1]⟩
abbrev S1x512 : Shape := ⟨2, ![1, 512]⟩
abbrev S8x512 : Shape := ⟨2, ![8, 512]⟩
abbrev S512x64 : Shape := ⟨2, ![512, 64]⟩
abbrev S512x512 : Shape := ⟨2, ![512, 512]⟩
abbrev S1x1x512 : Shape := ⟨3, ![1, 1, 512]⟩
abbrev S512x8 : Shape := ⟨2, ![512, 8]⟩
abbrev S512x8x1 : Shape := ⟨3, ![512, 8, 1]⟩
abbrev S512x8x512 : Shape := ⟨3, ![512, 8, 512]⟩

abbrev nBuf : Space → Nat
  | .hbm => 39
  | .vmem => 7
  | .smem => 0
  | _ => 0

abbrev bufTy : (tb : Table) → Fin (tcTables nBuf tb) → BufTy
  | .hbm, ⟨0, _⟩ => ⟨S1048576x3, .f32⟩
  | .hbm, ⟨1, _⟩ => ⟨S500x3, .f32⟩
  | .hbm, ⟨2, _⟩ => ⟨S500x3, .f32⟩
  | .hbm, ⟨3, _⟩ => ⟨S1048576x64, .i32⟩
  | .hbm, ⟨4, _⟩ => ⟨S_, .i32⟩
  | .hbm, ⟨5, _⟩ => ⟨S_, .f32⟩
  | .hbm, ⟨6, _⟩ => ⟨S512x3, .f32⟩
  | .hbm, ⟨7, _⟩ => ⟨S_, .i32⟩
  | .hbm, ⟨8, _⟩ => ⟨S_, .f32⟩
  | .hbm, ⟨9, _⟩ => ⟨S512x3, .f32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512x1, .f32⟩
  | .hbm, ⟨18, _⟩ => ⟨S512, .f32⟩
  | .hbm, ⟨19, _⟩ => ⟨S512x1, .f32⟩
  | .hbm, ⟨20, _⟩ => ⟨S512, .f32⟩
  | .hbm, ⟨21, _⟩ => ⟨S512x1, .f32⟩
  | .hbm, ⟨22, _⟩ => ⟨S512, .f32⟩
  | .hbm, ⟨23, _⟩ => ⟨S512x1, .f32⟩
  | .hbm, ⟨24, _⟩ => ⟨S512, .f32⟩
  | .hbm, ⟨25, _⟩ => ⟨S512x1, .f32⟩
  | .hbm, ⟨26, _⟩ => ⟨S512, .f32⟩
  | .hbm, ⟨27, _⟩ => ⟨S512x1, .f32⟩
  | .hbm, ⟨28, _⟩ => ⟨S512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S8x512, .f32⟩
  | .hbm, ⟨38, _⟩ => ⟨S1048576x3, .f32⟩
  | .local _ .vmem, ⟨0, _⟩ => ⟨S512x3, .f32⟩
  | .local _ .vmem, ⟨1, _⟩ => ⟨S512x3, .f32⟩
  | .local _ .vmem, ⟨2, _⟩ => ⟨S512x64, .i32⟩
  | .local _ .vmem, ⟨3, _⟩ => ⟨S512x64, .i32⟩
  | .local _ .vmem, ⟨4, _⟩ => ⟨S8x512, .f32⟩
  | .local _ .vmem, ⟨5, _⟩ => ⟨S512x3, .f32⟩
  | .local _ .vmem, ⟨6, _⟩ => ⟨S512x3, .f32⟩
  | _, _ => ⟨S1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S500x3_S512x3_0120_000 : S500x3.Pads (![0, 0] : Fin 2 → Nat) ![12, 0] ![0, 0] S512x3
  h_S_ : 0 < S_.numel
  bcast_S_S512 : S_.BroadcastsInDim S512 (![] : Fin 0 → Fin S512.rank)
  slices_S512x3_S512x1_0_0 : S512x3.Slices ![0, 0] S512x1
  shapeCasts_S512x1_S512 : S512x1.ShapeCasts S512
  slices_S512x3_S512x1_0_1 : S512x3.Slices ![0, 1] S512x1
  slices_S512x3_S512x1_0_2 : S512x3.Slices ![0, 2] S512x1
  bcast_S512_S1x512_1 : S512.BroadcastsInDim S1x512 (![1] : Fin 1 → Fin S1x512.rank)
  concatenates_S1x512_S1x512_S1x512_S1x512_S1x512_S1x512_S1x512_S1x512_S8x512_d0 : Shape.Concatenates [S1x512, S1x512, S1x512, S1x512, S1x512, S1x512, S1x512, S1x512] S8x512 0
  inb_S512x3_S512x3_0_0 : ∀ a, (![0, 0] : Fin 2 → Nat) a + S512x3.size a ≤ S512x3.size a
  h_S512x3 : 0 < S512x3.numel
  inb_S512x64_S512x64_0_0 : ∀ a, (![0, 0] : Fin 2 → Nat) a + S512x64.size a ≤ S512x64.size a
  h_S512x64 : 0 < S512x64.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o0_0_S1x512 : S8x512.Slices ![0, 0] S1x512
  shapeCasts_S1x512_S512 : S1x512.ShapeCasts S512
  slices_S8x512_o1_0_S1x512 : S8x512.Slices ![1, 0] S1x512
  slices_S8x512_o2_0_S1x512 : S8x512.Slices ![2, 0] S1x512
  slices_S8x512_o3_0_S1x512 : S8x512.Slices ![3, 0] S1x512
  slices_S8x512_o4_0_S1x512 : S8x512.Slices ![4, 0] S1x512
  slices_S8x512_o5_0_S1x512 : S8x512.Slices ![5, 0] S1x512
  slices_S8x512_o6_0_S1x512 : S8x512.Slices ![6, 0] S1x512
  slices_S512x3_o0_0_S512x1 : S512x3.Slices ![0, 0] S512x1
  shapeCasts_S512_S1x512 : S512.ShapeCasts S1x512
  broadcasts_S512x1_S512x512 : S512x1.Broadcasts S512x512
  broadcasts_S1x512_S512x512 : S1x512.Broadcasts S512x512
  slices_S512x3_o0_1_S512x1 : S512x3.Slices ![0, 1] S512x1
  slices_S512x3_o0_2_S512x1 : S512x3.Slices ![0, 2] S512x1
  iota_S1x1x512_d2_w32 : S1x1x512.Iotas .tc 32 [2]
  slices_S512x64_o0_0_S512x8 : S512x64.Slices ![0, 0] S512x8
  shapeCasts_S512x8_S512x8x1 : S512x8.ShapeCasts S512x8x1
  broadcasts_S512x8x1_S512x8x512 : S512x8x1.Broadcasts S512x8x512
  broadcasts_S1x1x512_S512x8x512 : S1x1x512.Broadcasts S512x8x512
  natLt_1_32 : 1 < 32
  bitsLt_bf16_f32 : FTy.bits .bf16 < FTy.bits .f32
  reduces_S512x8x512_S512x512 : S512x8x512.Reduces [1] S512x512
  slices_S512x64_o0_8_S512x8 : S512x64.Slices ![0, 8] S512x8
  slices_S512x64_o0_16_S512x8 : S512x64.Slices ![0, 16] S512x8
  slices_S512x64_o0_24_S512x8 : S512x64.Slices ![0, 24] S512x8
  slices_S512x64_o0_32_S512x8 : S512x64.Slices ![0, 32] S512x8
  slices_S512x64_o0_40_S512x8 : S512x64.Slices ![0, 40] S512x8
  slices_S512x64_o0_48_S512x8 : S512x64.Slices ![0, 48] S512x8
  slices_S512x64_o0_56_S512x8 : S512x64.Slices ![0, 56] S512x8
  reduces_S512x512_S512 : S512x512.Reduces [1] S512
  shapeCasts_S512_S512x1 : S512.ShapeCasts S512x1
  concatenates_S512x1_S512x1_S512x1_S512x3_d1 : Shape.Concatenates [S512x1, S512x1, S512x1] S512x3 1
  broadcasts_S512x1_S512x3 : S512x1.Broadcasts S512x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S1048576x3.size a
  hwx0_0 : ∀ i : grid0.Coords, EltTy.bits .f32 = 32 ∨ (Rect.block (s := S1048576x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S1048576x64.size a
  hwx0_1 : ∀ i : grid0.Coords, EltTy.bits .i32 = 32 ∨ (Rect.block (s := S1048576x64) S512x64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3.size a ≤ S1048576x3.size a
  hwx0_3 : ∀ i : grid0.Coords, EltTy.bits .f32 = 32 ∨ (Rect.block (s := S1048576x3) S512x3.size (cc0_transform_3 i) (hinb0_3 i)).WholeWords (EltTy.packing .f32)

variable [Facts₀]

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S512x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x3 : Shape := ⟨2, ![1048576, 3]⟩
abbrev S500x3 : Shape := ⟨2, ![500, 3]⟩
abbrev S1048576x64 : Shape := ⟨2, ![1048576, 64]⟩
abbrev S_ : Shape := ⟨0, ![]⟩
abbrev S1048576x64x1 : Shape := ⟨3, ![1048576, 64, 1]⟩
abbrev S1048576x64x3 : Shape := ⟨3, ![1048576, 64, 3]⟩
abbrev S1048576x1x3 : Shape := ⟨3, ![1048576, 1, 3]⟩
abbrev S1048576 : Shape := ⟨1, ![1048576]⟩
abbrev S1048576x1 : Shape := ⟨2, ![1048576, 1]⟩

abbrev nBuf : Space → Nat
  | .hbm => 58
  | .vmem => 0
  | .smem => 0
  | _ => 0

abbrev bufTy : (tb : Table) → Fin (tcTables nBuf tb) → BufTy
  | .hbm, ⟨0, _⟩ => ⟨S1048576x3, .f32⟩
  | .hbm, ⟨1, _⟩ => ⟨S500x3, .f32⟩
  | .hbm, ⟨2, _⟩ => ⟨S500x3, .f32⟩
  | .hbm, ⟨3, _⟩ => ⟨S1048576x64, .i32⟩
  | .hbm, ⟨4, _⟩ => ⟨S_, .i32⟩
  | .hbm, ⟨5, _⟩ => ⟨S1048576x64, .i32⟩
  | .hbm, ⟨6, _⟩ => ⟨S1048576x64, .i1⟩
  | .hbm, ⟨7, _⟩ => ⟨S_, .i32⟩
  | .hbm, ⟨8, _⟩ => ⟨S_, .i32⟩
  | .hbm, ⟨9, _⟩ => ⟨S1048576x64, .i32⟩
  | .hbm, ⟨10, _⟩ => ⟨S1048576x64, .i32⟩
  | .hbm, ⟨11, _⟩ => ⟨S_, .i32⟩
  | .hbm, ⟨12, _⟩ => ⟨S1048576x64, .i32⟩
  | .hbm, ⟨13, _⟩ => ⟨S1048576x64, .i1⟩
  | .hbm, ⟨14, _⟩ => ⟨S_, .i32⟩
  | .hbm, ⟨15, _⟩ => ⟨S1048576x64, .i32⟩
  | .hbm, ⟨16, _⟩ => ⟨S1048576x64, .i32⟩
  | .hbm, ⟨17, _⟩ => ⟨S1048576x64, .i32⟩
  | .hbm, ⟨18, _⟩ => ⟨S1048576x64x1, .i32⟩
  | .hbm, ⟨19, _⟩ => ⟨S1048576x64x3, .f32⟩
  | .hbm, ⟨20, _⟩ => ⟨S_, .i32⟩
  | .hbm, ⟨21, _⟩ => ⟨S1048576x64, .i32⟩
  | .hbm, ⟨22, _⟩ => ⟨S1048576x64, .i1⟩
  | .hbm, ⟨23, _⟩ => ⟨S_, .i32⟩
  | .hbm, ⟨24, _⟩ => ⟨S1048576x64, .i32⟩
  | .hbm, ⟨25, _⟩ => ⟨S1048576x64, .i32⟩
  | .hbm, ⟨26, _⟩ => ⟨S1048576x64, .i32⟩
  | .hbm, ⟨27, _⟩ => ⟨S1048576x64x1, .i32⟩
  | .hbm, ⟨28, _⟩ => ⟨S1048576x64x3, .f32⟩
  | .hbm, ⟨29, _⟩ => ⟨S1048576x1x3, .f32⟩
  | .hbm, ⟨30, _⟩ => ⟨S1048576x64x3, .f32⟩
  | .hbm, ⟨31, _⟩ => ⟨S1048576x64x3, .f32⟩
  | .hbm, ⟨32, _⟩ => ⟨S1048576x64x3, .f32⟩
  | .hbm, ⟨33, _⟩ => ⟨S_, .f32⟩
  | .hbm, ⟨34, _⟩ => ⟨S1048576x64, .f32⟩
  | .hbm, ⟨35, _⟩ => ⟨S1048576x64, .f32⟩
  | .hbm, ⟨36, _⟩ => ⟨S_, .f32⟩
  | .hbm, ⟨37, _⟩ => ⟨S1048576x64, .f32⟩
  | .hbm, ⟨38, _⟩ => ⟨S1048576x64, .f32⟩
  | .hbm, ⟨39, _⟩ => ⟨S1048576x64, .f32⟩
  | .hbm, ⟨40, _⟩ => ⟨S1048576x64, .f32⟩
  | .hbm, ⟨41, _⟩ => ⟨S1048576x64, .f32⟩
  | .hbm, ⟨42, _⟩ => ⟨S_, .f32⟩
  | .hbm, ⟨43, _⟩ => ⟨S1048576, .f32⟩
  | .hbm, ⟨44, _⟩ => ⟨S1048576x1, .f32⟩
  | .hbm, ⟨45, _⟩ => ⟨S_, .f32⟩
  | .hbm, ⟨46, _⟩ => ⟨S1048576x1, .f32⟩
  | .hbm, ⟨47, _⟩ => ⟨S1048576x1, .i1⟩
  | .hbm, ⟨48, _⟩ => ⟨S_, .f32⟩
  | .hbm, ⟨49, _⟩ => ⟨S1048576x1, .f32⟩
  | .hbm, ⟨50, _⟩ => ⟨S1048576x1, .f32⟩
  | .hbm, ⟨51, _⟩ => ⟨S1048576x64, .f32⟩
  | .hbm, ⟨52, _⟩ => ⟨S1048576x64, .f32⟩
  | .hbm, ⟨53, _⟩ => ⟨S1048576x64x1, .f32⟩
  | .hbm, ⟨54, _⟩ => ⟨S1048576x64x3, .f32⟩
  | .hbm, ⟨55, _⟩ => ⟨S1048576x64x3, .f32⟩
  | .hbm, ⟨56, _⟩ => ⟨S_, .f32⟩
  | .hbm, ⟨57, _⟩ => ⟨S1048576x3, .f32⟩
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_c_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  bcast_S_S1048576x64 : S_.BroadcastsInDim S1048576x64 (![] : Fin 0 → Fin S1048576x64.rank)
  bcast_S1048576x64_S1048576x64x1_0_1 : S1048576x64.BroadcastsInDim S1048576x64x1 (![0, 1] : Fin 2 → Fin S1048576x64x1.rank)
  bcast_S1048576x3_S1048576x1x3_0_2 : S1048576x3.BroadcastsInDim S1048576x1x3 (![0, 2] : Fin 2 → Fin S1048576x1x3.rank)
  bcast_S1048576x1x3_S1048576x64x3_0_1_2 : S1048576x1x3.BroadcastsInDim S1048576x64x3 (![0, 1, 2] : Fin 3 → Fin S1048576x64x3.rank)
  reducesTo_S1048576x64x3_S1048576x64_d2 : S1048576x64x3.ReducesTo [2] S1048576x64
  h_S_ : 0 < S_.numel
  reducesTo_S1048576x64_S1048576_d1 : S1048576x64.ReducesTo [1] S1048576
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x64_0_1 : S1048576x1.BroadcastsInDim S1048576x64 (![0, 1] : Fin 2 → Fin S1048576x64.rank)
  bcast_S1048576x64x1_S1048576x64x3_0_1_2 : S1048576x64x1.BroadcastsInDim S1048576x64x3 (![0, 1, 2] : Fin 3 → Fin S1048576x64x3.rank)
  reducesTo_S1048576x64x3_S1048576x3_d1 : S1048576x64x3.ReducesTo [1] S1048576x3
  gather_S500x3_S1048576x64x1_S1048576x64x3_2_0_n_n_0_2_13_wf : GatherDims.WF S500x3 S1048576x64x1 S1048576x64x3 [2] [0] [] [0] [] 2 ![1, 3]

variable [Facts₀]

def gather_S500x3_S1048576x64x1_S1048576x64x3_2_0_n_n_0_2_13 : GatherDims S500x3 S1048576x64x1 S1048576x64x3 where
  offsetDims := [2]
  collapsedSliceDims := [0]
  operandBatchingDims := []
  startIndicesBatchingDims := []
  startIndexMap := [0]
  indexVectorDim := 2
  sliceSizes := ![1, 3]
  wf := gather_S500x3_S1048576x64x1_S1048576x64x3_2_0_n_n_0_2_13_wf

class Facts : Prop extends Facts₀ where

variable [Facts]
-- ==== Proof.KV.lean ====
/-
  The kernel program up to its one region.

  @main is five stretches of host operations — the two tables padded from 500 to 512 rows, the validity flags
  (column index < 500), a zero row, each table column cut out and laid as a 1 × 512 row, the eight rows joined
  into the 8 × 512 table — and then the region.  `V` is every TensorCore buffer as the region finds it; `hmain`
  says @main is that prefix followed by the region; none of the host operations writes an argument array.
-/
import proofs.«414026_j26345329393933_3_alg».proof.Proof.Gen.Kernel.Launch
import proofs.«414026_j26345329393933_3_alg».proof.Proof.Gen.Kernel.Skeleton
import proofs.«414026_j26345329393933_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffers when the region is entered: after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the host prefix, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes an argument array: the region finds each as launched. -/
theorem V_of_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes,
      StableHlo.TRef.unary, StableHlo.TRef.binary, StableHlo.reshape_writes, Finset.mem_singleton]
    rcases hb with rfl | rfl | rfl | rfl
    all_goals (repeat' apply And.intro)
    all_goals exact StableHlo.devRef_ne_of_ne (by decide)))

theorem V_main_arg0 (c : Dev nD) : V m c main_arg0 = m ((c : Thread nD τ).loc main_arg0) := V_of_arg m c _ (.inl rfl)
theorem V_main_arg1 (c : Dev nD) : V m c main_arg1 = m ((c : Thread nD τ).loc main_arg1) := V_of_arg m c _ (.inr (.inl rfl))
theorem V_main_arg2 (c : Dev nD) : V m c main_arg2 = m ((c : Thread nD τ).loc main_arg2) := V_of_arg m c _ (.inr (.inr (.inl rfl)))
theorem V_main_arg3 (c : Dev nD) : V m c main_arg3 = m ((c : Thread nD τ).loc main_arg3) := V_of_arg m c _ (.inr (.inr (.inr rfl)))

end Cert.Kernel.Fr

end
-- ==== Proof.KOut.lean ====
/-
  What the kernel body stores into its output block, as one pure function of the three input blocks it loads:
  the block of 512 points, the block of 512 × 64 candidate words, and the 8 × 512 table.
-/
import proofs.«414026_j26345329393933_3_alg».proof.Proof.KV

noncomputable section

namespace Cert.Kernel.Fr

open Cert.Kernel Cert.Kernel.Gen
open Idealize.ShloMosaic Idealize.SL.Sem

variable {F : FTy → Type} [FloatOps F]

/-- The lane index 0 … 511 along the last axis of a 1 × 1 × 512 vector. -/
abbrev lanes : IVec S1x1x512 32 := iota .tc S1x1x512 32 [2] iota_S1x1x512_d2_w32

/-- Count × weight, 512 rows by 512 columns: the candidate counts of the eight 8-wide chunks added up, times the weights. -/
abbrev cwBlk (x0 : Vec F S512x3 .f32) (x1 : Vec F S512x64 .i32) (x2 : Vec F S8x512 .f32) : FVec F S512x512 .f32 :=
  k0_pay11 x1 (k0_pay6 x0 x2) lanes (k0_pay9 x1 lanes (k0_pay7 (F := F)) (k0_pay8 x1)) (k0_pay10 x1 lanes)

/-- The normalising denominator, one per row. -/
abbrev denBlk (x0 : Vec F S512x3 .f32) (x1 : Vec F S512x64 .i32) (x2 : Vec F S8x512 .f32) : FVec F S512x1 .f32 :=
  k0_pay12 x1 (k0_pay6 x0 x2) lanes (k0_pay9 x1 lanes (k0_pay7 (F := F)) (k0_pay8 x1)) (k0_pay10 x1 lanes)

/-- The stored block: three weighted sums of displacement rows over the columns, each divided by the denominator. -/
def outBlk (x0 : Vec F S512x3 .f32) (x1 : Vec F S512x64 .i32) (x2 : Vec F S8x512 .f32) : Vec F S512x3 .f32 :=
  k0_pay1 (k0_pay3 x2) (k0_pay4 x2) (k0_pay5 x2) (cwBlk x0 x1 x2) (denBlk x0 x1 x2)

end Cert.Kernel.Fr

end
-- ==== Proof.KFrame.lean ====
/-
  The frame of the kernel program: it runs to the end, faults nowhere, and leaves its four argument arrays unchanged;
  and after the run the result array holds, block by block, what the body stores.

  The region has 2048 grid points.  At point t the body is handed the t-th block of 512 points, the t-th block of
  512 × 64 candidate words and the whole 8 × 512 table (fetched once, at the first point, and left in place), and
  it stores one 512 × 3 block that covers its whole output buffer.  Before that store it loads the output buffer
  once and never uses what it read.
-/
import proofs.«414026_j26345329393933_3_alg».proof.Proof.KOut

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the table is
    fetched once and its block index never moves), for any proof data over the region-entry arrays whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the four argument arrays, three of them staged by input windows and one (the
    displacement table's source) read only by the host prefix, end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c)))⟩) h

/-! ## The body's accesses -/

abbrev rPts : Rect S512x3 := Rect.unit (s := S512x3) ![0, 0] S512x3.size inb_S512x3_S512x3_0_0
abbrev rIds : Rect S512x64 := Rect.unit (s := S512x64) ![0, 0] S512x64.size inb_S512x64_S512x64_0_0
abbrev rTab : Rect S8x512 := Rect.unit (s := S8x512) ![0, 0] S8x512.size inb_S8x512_S8x512_0_0

/-- The output buffer after the body, from the three input blocks: its one store, which covers the buffer. -/
def out0_3 (x0 : Vec F S512x3 .f32) (x1 : Vec F S512x64 .i32) (x2 : Vec F S8x512 .f32) : Vec F S512x3 .f32 :=
  View.canon [⟨rPts, outBlk (View.ld x0 rPts) (View.ld x1 rIds) (View.ld x2 rTab)⟩]

theorem cover0_3 (p0 : Vec F S512x3 .f32) (y : S512x3.Idx) :
    ∃ pc ∈ ([⟨rPts, p0⟩] : List (View.Piece (Elt F) S512x3 .f32)), y ∈ pc.1.set :=
  View.cover_of_tiled [⟨rPts, p0⟩] S512x3.size (by rfl) y

/-! ## The body's triple -/

set_option maxHeartbeats 2000000 in
/-- The body on whole staging memrefs — the inputs' at contents `x0`, `x1`, `x2`, the output's at anything — runs
    to the continuation with the inputs' as they were and the output's at `out0_3` of them. -/
theorem sound_kernel (c : Dev nD) (E : Set ℕ) (i : grid0.Coords)
    (arg1 : Memref sig .tc .vmem S512x3 .f32) (harg1 : arg1.IsWhole) (arg2 : Memref sig .tc .vmem S512x64 .i32) (harg2 : arg2.IsWhole)
    (arg3 : Memref sig .tc .vmem S8x512 .f32) (harg3 : arg3.IsWhole) (arg4 : Memref sig .tc .vmem S512x3 .f32) (harg4 : arg4.IsWhole)
    (x0 : Vec F S512x3 .f32) (x1 : Vec F S512x64 .i32) (x2 : Vec F S8x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__kdtree_rbf_kernel i arg1 harg1 arg2 harg2 arg3 harg3 arg4 harg4) K := by
  simp only [cc0__kdtree_rbf_kernel_eq_skeleton]; unfold cc0__kdtree_rbf_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays as the region finds them; after the body at point `t` each input's
    buffer at its block and the output's at `out0_3` of the three input blocks; the scoped rest and the generator
    register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the result array at what the
    proof data's blocks write back and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KIV.lean ====
/-
  The idealized kernel program up to its one region.

  @main is five stretches of host operations — the two tables padded from 500 to 512 rows, the validity flags
  (column index < 500), a zero row, each table column cut out and laid as a 1 × 512 row, the eight rows joined
  into the 8 × 512 table — and then the region.  `V` is every TensorCore buffer as the region finds it; `hmain`
  says @main is that prefix followed by the region; none of the host operations writes an argument array.
-/
import proofs.«414026_j26345329393933_3_alg».proof.Proof.Gen.KernelIdeal.Launch
import proofs.«414026_j26345329393933_3_alg».proof.Proof.Gen.KernelIdeal.Skeleton
import proofs.«414026_j26345329393933_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- Core `c`'s TensorCore buffers when the region is entered: after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the host prefix, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes an argument array: the region finds each as launched. -/
theorem V_of_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes,
      StableHlo.TRef.unary, StableHlo.TRef.binary, StableHlo.reshape_writes, Finset.mem_singleton]
    rcases hb with rfl | rfl | rfl | rfl
    all_goals (repeat' apply And.intro)
    all_goals exact StableHlo.devRef_ne_of_ne (by decide)))

theorem V_main_arg0 (c : Dev nD) : V m c main_arg0 = m ((c : Thread nD τ).loc main_arg0) := V_of_arg m c _ (.inl rfl)
theorem V_main_arg1 (c : Dev nD) : V m c main_arg1 = m ((c : Thread nD τ).loc main_arg1) := V_of_arg m c _ (.inr (.inl rfl))
theorem V_main_arg2 (c : Dev nD) : V m c main_arg2 = m ((c : Thread nD τ).loc main_arg2) := V_of_arg m c _ (.inr (.inr (.inl rfl)))
theorem V_main_arg3 (c : Dev nD) : V m c main_arg3 = m ((c : Thread nD τ).loc main_arg3) := V_of_arg m c _ (.inr (.inr (.inr rfl)))

end Cert.KernelIdeal.Fr

end
-- ==== Proof.KIOut.lean ====
/-
  What the kernel body stores into its output block, as one pure function of the three input blocks it loads:
  the block of 512 points, the block of 512 × 64 candidate words, and the 8 × 512 table.
-/
import proofs.«414026_j26345329393933_3_alg».proof.Proof.KIV

noncomputable section

namespace Cert.KernelIdeal.Fr

open Cert.KernelIdeal Cert.KernelIdeal.Gen
open Idealize.ShloMosaic Idealize.SL.Sem

variable {F : FTy → Type} [FloatOps F] [Named F]

/-- The lane index 0 … 511 along the last axis of a 1 × 1 × 512 vector. -/
abbrev lanes : IVec S1x1x512 32 := iota .tc S1x1x512 32 [2] iota_S1x1x512_d2_w32

/-- Count × weight, 512 rows by 512 columns: the candidate counts of the eight 8-wide chunks added up, times the weights. -/
abbrev cwBlk (x0 : Vec F S512x3 .f32) (x1 : Vec F S512x64 .i32) (x2 : Vec F S8x512 .f32) : FVec F S512x512 .f32 :=
  k0_pay11 x1 (k0_pay6 x0 x2) lanes (k0_pay9 x1 lanes (k0_pay7 (F := F)) (k0_pay8 x1)) (k0_pay10 x1 lanes)

/-- The normalising denominator, one per row. -/
abbrev denBlk (x0 : Vec F S512x3 .f32) (x1 : Vec F S512x64 .i32) (x2 : Vec F S8x512 .f32) : FVec F S512x1 .f32 :=
  k0_pay12 x1 (k0_pay6 x0 x2) lanes (k0_pay9 x1 lanes (k0_pay7 (F := F)) (k0_pay8 x1)) (k0_pay10 x1 lanes)

/-- The stored block: three weighted sums of displacement rows over the columns, each divided by the denominator. -/
def outBlk (x0 : Vec F S512x3 .f32) (x1 : Vec F S512x64 .i32) (x2 : Vec F S8x512 .f32) : Vec F S512x3 .f32 :=
  k0_pay1 (k0_pay3 x2) (k0_pay4 x2) (k0_pay5 x2) (cwBlk x0 x1 x2) (denBlk x0 x1 x2)

end Cert.KernelIdeal.Fr

end
-- ==== Proof.KIFrame.lean ====
/-
  The frame of the idealized kernel program: it runs to the end, faults nowhere, and leaves its four argument arrays unchanged;
  and after the run the result array holds, block by block, what the body stores.

  The region has 2048 grid points.  At point t the body is handed the t-th block of 512 points, the t-th block of
  512 × 64 candidate words and the whole 8 × 512 table (fetched once, at the first point, and left in place), and
  it stores one 512 × 3 block that covers its whole output buffer.  Before that store it loads the output buffer
  once and never uses what it read.
-/
import proofs.«414026_j26345329393933_3_alg».proof.Proof.KIOut

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the table is
    fetched once and its block index never moves), for any proof data over the region-entry arrays whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the four argument arrays, three of them staged by input windows and one (the
    displacement table's source) read only by the host prefix, end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c)))⟩) h

/-! ## The body's accesses -/

abbrev rPts : Rect S512x3 := Rect.unit (s := S512x3) ![0, 0] S512x3.size inb_S512x3_S512x3_0_0
abbrev rIds : Rect S512x64 := Rect.unit (s := S512x64) ![0, 0] S512x64.size inb_S512x64_S512x64_0_0
abbrev rTab : Rect S8x512 := Rect.unit (s := S8x512) ![0, 0] S8x512.size inb_S8x512_S8x512_0_0

/-- The output buffer after the body, from the three input blocks: its one store, which covers the buffer. -/
def out0_3 (x0 : Vec F S512x3 .f32) (x1 : Vec F S512x64 .i32) (x2 : Vec F S8x512 .f32) : Vec F S512x3 .f32 :=
  View.canon [⟨rPts, outBlk (View.ld x0 rPts) (View.ld x1 rIds) (View.ld x2 rTab)⟩]

theorem cover0_3 (p0 : Vec F S512x3 .f32) (y : S512x3.Idx) :
    ∃ pc ∈ ([⟨rPts, p0⟩] : List (View.Piece (Elt F) S512x3 .f32)), y ∈ pc.1.set :=
  View.cover_of_tiled [⟨rPts, p0⟩] S512x3.size (by rfl) y

/-! ## The body's triple -/

set_option maxHeartbeats 2000000 in
/-- The body on whole staging memrefs — the inputs' at contents `x0`, `x1`, `x2`, the output's at anything — runs
    to the continuation with the inputs' as they were and the output's at `out0_3` of them. -/
theorem sound_kernel (c : Dev nD) (E : Set ℕ) (i : grid0.Coords)
    (arg1 : Memref sig .tc .vmem S512x3 .f32) (harg1 : arg1.IsWhole) (arg2 : Memref sig .tc .vmem S512x64 .i32) (harg2 : arg2.IsWhole)
    (arg3 : Memref sig .tc .vmem S8x512 .f32) (harg3 : arg3.IsWhole) (arg4 : Memref sig .tc .vmem S512x3 .f32) (harg4 : arg4.IsWhole)
    (x0 : Vec F S512x3 .f32) (x1 : Vec F S512x64 .i32) (x2 : Vec F S8x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__kdtree_rbf_kernel i arg1 harg1 arg2 harg2 arg3 harg3 arg4 harg4) K := by
  simp only [cc0__kdtree_rbf_kernel_eq_skeleton]; unfold cc0__kdtree_rbf_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays as the region finds them; after the body at point `t` each input's
    buffer at its block and the output's at `out0_3` of the three input blocks; the scoped rest and the generator
    register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the result array at what the
    proof data's blocks write back and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.Spec.lean ====
/-
  The mathematics both programs compute, one output row at a time.

  A point p (three coordinates) carries 64 candidate words; a word below 500 names a row of the control-point table
  C and of the displacement table D, and the word 500 says "no neighbour".  Each candidate k with row r weighs
  exp(-|p - C r|² / 200), a "no neighbour" candidate weighs 0; the result's coordinate j is the weighted mean of
  D r j, the weights' sum replaced by one when it is below a small threshold.

  The kernel reaches the same number column by column: it lays both tables out as one 8 × 512 table T (three rows of
  control-point coordinates, three of displacements, a row of 0/1 validity flags, a zero row; columns 500 … 511 are
  padding), counts for every column q how many of the 64 words equal q, and sums count × weight(q) × T(3 + j, q)
  over the 512 columns.  `rowSpec` is that column-wise formula over any table, `tab` the table, `refRow` the
  candidate-wise formula; `Gk` and `Gr` are the two whole-array functions built from them.
-/
import Idealize.ShloMosaic.PureOps.Ideal
import Idealize.ShloMosaic.Lib.ValueIdx

noncomputable section

open scoped BigOperators

namespace Cert.KdRbf

open Idealize.ShloMosaic Idealize.ShloMosaic.ValueIdx

abbrev ShPts : Shape := ⟨2, ![1048576, 3]⟩
abbrev ShTbl : Shape := ⟨2, ![500, 3]⟩
abbrev ShIds : Shape := ⟨2, ![1048576, 64]⟩
abbrev ShTab : Shape := ⟨2, ![8, 512]⟩

/-- The threshold below which a weight sum is replaced by one (the f32 nearest 1e-5), the replacement, and the
    reference's divisor 2σ² = 200: the words both programs carry, never evaluated where both sides carry them. -/
abbrev thr : EReal := Ideal.ofBits .f32 0x3727C5AC#32
abbrev one : EReal := Ideal.ofBits .f32 0x3F800000#32
abbrev c200 : EReal := Ideal.ofBits .f32 0x43480000#32

/-- The normalising denominator: a weight sum below the threshold is replaced by one. -/
def den (s : EReal) : EReal := if s < thr then one else s

/-! ## The kernel's row, column by column over a table -/

/-- Candidate word `w` names column `q`: 1 if it does, else 0. -/
def hot (w : BitVec 32) (q : Fin 512) : EReal := if w = BitVec.ofNat 32 q.val then 1 else 0

/-- How many of a row's 64 candidates name column `q`. -/
def kCount (ids : Fin 64 → BitVec 32) (q : Fin 512) : EReal := ∑ k : Fin 64, hot (ids k) q

/-- Squared distance from `p` to column `q`'s control point (table rows 0, 1, 2), associated as the kernel adds it. -/
def kDist (p : Fin 3 → EReal) (T : ShTab.Idx → EReal) (q : Fin 512) : EReal :=
  ((p 0 - T (ix2 (0 : Fin 8) q)) * (p 0 - T (ix2 (0 : Fin 8) q)) + (p 1 - T (ix2 (1 : Fin 8) q)) * (p 1 - T (ix2 (1 : Fin 8) q)))
    + (p 2 - T (ix2 (2 : Fin 8) q)) * (p 2 - T (ix2 (2 : Fin 8) q))

/-- Column `q`'s weight: the Gaussian of the distance (scaled by 1/200), times the column's validity flag (table row 6). -/
def kWeight (p : Fin 3 → EReal) (T : ShTab.Idx → EReal) (q : Fin 512) : EReal :=
  Ideal.exp ((0 - kDist p T q) * ((1 / 200 : ℝ) : EReal)) * T (ix2 (6 : Fin 8) q)

/-- Count × weight. -/
def kCW (p : Fin 3 → EReal) (ids : Fin 64 → BitVec 32) (T : ShTab.Idx → EReal) (q : Fin 512) : EReal :=
  kCount ids q * kWeight p T q

/-- The weights' sum over the 512 columns. -/
def kSum (p : Fin 3 → EReal) (ids : Fin 64 → BitVec 32) (T : ShTab.Idx → EReal) : EReal := ∑ q : Fin 512, kCW p ids T q

/-- Displacement coordinate `j` sits in table row `3 + j`. -/
abbrev dRow (j : Fin 3) : Fin 8 := ⟨3 + j.val, by omega⟩

/-- The kernel's output row at coordinate `j`. -/
def rowSpec (p : Fin 3 → EReal) (ids : Fin 64 → BitVec 32) (T : ShTab.Idx → EReal) (j : Fin 3) : EReal :=
  Ideal.div (∑ q : Fin 512, kCW p ids T q * T (ix2 (dRow j) q)) (den (kSum p ids T))

/-! ## The merged table -/

/-- A 500-row table padded with zero rows to 512, read at row `q`, coordinate `j`. -/
def padded (X : ShTbl.Idx → EReal) (q : Fin 512) (j : Fin 3) : EReal :=
  if h : q.val < 500 then X (ix2 (⟨q.val, h⟩ : Fin 500) j) else 0

/-- The 8 × 512 table: control points' coordinates, displacements' coordinates, validity, zeros. -/
def tab (C D : ShTbl.Idx → EReal) : ShTab.Idx → EReal := fun i =>
  match i 0 with
  | ⟨0, _⟩ => padded C (i 1) 0
  | ⟨1, _⟩ => padded C (i 1) 1
  | ⟨2, _⟩ => padded C (i 1) 2
  | ⟨3, _⟩ => padded D (i 1) 0
  | ⟨4, _⟩ => padded D (i 1) 1
  | ⟨5, _⟩ => padded D (i 1) 2
  | ⟨6, _⟩ => if (i 1).val < 500 then 1 else 0
  | ⟨_ + 7, _⟩ => 0

/-! ## The reference's row, candidate by candidate -/

/-- The table row a candidate word reads: "no neighbour" (500) reads row 0, a negative word wraps by 500, and the
    read is clamped into the table. -/
def safeRow (w : BitVec 32) : Fin 500 :=
  let s : BitVec 32 := if w = 500#32 then 0#32 else w
  let t : BitVec 32 := if s.toInt < 0 then s + 500#32 else s
  ⟨min t.toInt.toNat 499, by omega⟩

/-- 0 for "no neighbour", else 1. -/
def refMask (w : BitVec 32) : EReal := if w = 500#32 then 0 else 1

/-- A candidate's weight. -/
def rWeight (p : Fin 3 → EReal) (C : ShTbl.Idx → EReal) (w : BitVec 32) : EReal :=
  Ideal.exp (Ideal.div (-(0 + ∑ j : Fin 3, (p j - C (ix2 (safeRow w) j)) * (p j - C (ix2 (safeRow w) j)))) c200) * refMask w

/-- The weights' sum over the 64 candidates. -/
def rSum (p : Fin 3 → EReal) (C : ShTbl.Idx → EReal) (ids : Fin 64 → BitVec 32) : EReal := 0 + ∑ k : Fin 64, rWeight p C (ids k)

/-- The reference's output row at coordinate `j`. -/
def refRow (p : Fin 3 → EReal) (ids : Fin 64 → BitVec 32) (C D : ShTbl.Idx → EReal) (j : Fin 3) : EReal :=
  0 + ∑ k : Fin 64, Ideal.div (rWeight p C (ids k)) (den (rSum p C ids)) * D (ix2 (safeRow (ids k)) j)

/-! ## The two whole-array functions -/

/-- Row `n` of the points and of the candidate words. -/
abbrev ptRow (P : ShPts.Idx → EReal) (n : Fin 1048576) : Fin 3 → EReal := fun j => P (ix2 n j)
abbrev idRow (I : ShIds.Idx → BitVec 32) (n : Fin 1048576) : Fin 64 → BitVec 32 := fun k => I (ix2 n k)

/-- The kernel's result array. -/
def Gk (P : ShPts.Idx → EReal) (C D : ShTbl.Idx → EReal) (I : ShIds.Idx → BitVec 32) : ShPts.Idx → EReal := fun i =>
  rowSpec (ptRow P (i 0)) (idRow I (i 0)) (tab C D) (i 1)

/-- The reference's result array. -/
def Gr (P : ShPts.Idx → EReal) (C D : ShTbl.Idx → EReal) (I : ShIds.Idx → BitVec 32) : ShPts.Idx → EReal := fun i =>
  refRow (ptRow P (i 0)) (idRow I (i 0)) C D (i 1)

end Cert.KdRbf

end
-- ==== Proof.Counts.lean ====
/-
  The candidate counts.  The kernel cuts the 64 candidate columns into eight chunks of eight; for a chunk it compares
  every candidate of every row with every lane index 0 … 511, turns the comparison bits into 0 / 1, and sums over the
  chunk's eight candidates; the eight chunk counts are added up from zero.  At row r, column q that total is the number
  of the row's 64 candidates equal to q.
-/
import proofs.«414026_j26345329393933_3_alg».proof.Proof.Spec
import proofs.«414026_j26345329393933_3_alg».proof.Proof.KIOut
import Idealize.ShloMosaic.Lib.ValueIdx
import Idealize.ShloMosaic.Lib.Pipeline.Value
import Idealize.ShloMosaic.PureOps.Ideal.Laws

noncomputable section

open scoped BigOperators

namespace Cert.KernelIdeal.Counts

open Cert.KernelIdeal Cert.KernelIdeal.Gen Cert.KernelIdeal.Fr
open Idealize.ShloMosaic Idealize.ShloMosaic.ValueIdx Idealize.SL.Sem

/-- The lane index read at column `q` is the word `q`. -/
theorem lanes_apply (u v : Fin 1) (q : Fin 512) : lanes (ix3 u v q) = BitVec.ofNat 32 q.val := by
  show BitVec.ofNat 32 (0 * 512 + q.val) = _
  rw [Nat.zero_mul, Nat.zero_add]

/-- The 0/1 words of one 8-wide chunk of the candidate columns, starting at column `o`: candidate against lane. -/
abbrev chunkBits (x1 : IVec S512x64 32) (o : Nat) (hs : S512x64.Slices ![0, o] S512x8) : IVec S512x8x512 32 :=
  extui 32 (cmpi .eq
    (broadcastTo S512x8x512 (shapeCast S512x8x1 (extractStridedSlice S512x8 ![0, o] x1 hs) shapeCasts_S512x8_S512x8x1) broadcasts_S512x8x1_S512x8x512)
    (broadcastTo S512x8x512 lanes broadcasts_S1x1x512_S512x8x512)) natLt_1_32

/-- That chunk's counts: the converted words summed over the chunk's eight candidates. -/
abbrev chunkCount (x1 : IVec S512x64 32) (o : Nat) (hs : S512x64.Slices ![0, o] S512x8) : FVec Ideal S512x512 .f32 :=
  multiReduction .add [1] S512x512 (sitofp (F := Ideal) .f32 (chunkBits x1 o hs)) 0x00000000#32 reduces_S512x8x512_S512x512 (.inl rfl) rfl

/-- The chunk's candidate `k` of row `r`, spread along the lanes, is candidate `o + k` of the row. -/
theorem cand_apply (x1 : IVec S512x64 32) (o : Nat) (hs : S512x64.Slices ![0, o] S512x8) (r : Fin 512) (k : Fin 8) (q : Fin 512)
    (hk : o + k.val < 64) :
    broadcastTo S512x8x512 (shapeCast S512x8x1 (extractStridedSlice S512x8 ![0, o] x1 hs) shapeCasts_S512x8_S512x8x1)
      broadcasts_S512x8x1_S512x8x512 (ix3 r k q) = x1 (ix2 r ⟨o + k.val, hk⟩) := by
  refine (broadcastTo_apply _ broadcasts_S512x8x1_S512x8x512 (ix3 r k q) (ix3 r k (0 : Fin 1)) fun a => ?_).trans ?_
  · match a with
    | ⟨0, _⟩ => rfl
    | ⟨1, _⟩ => rfl
    | ⟨2, _⟩ => rfl
  refine (shapeCast_apply _ shapeCasts_S512x8_S512x8x1 (ix3 r k (0 : Fin 1)) (ix2 r k) ?_).trans ?_
  · rw [Shape.rowMajor_val_three, Shape.rowMajor_val_two]
    show r.val * 8 + k.val = (r.val * 8 + k.val) * 1 + 0
    omega
  exact extractStridedSlice_apply _ x1 hs (ix2 r k) (ix2 r ⟨o + k.val, hk⟩) fun a => by
    match a with
    | ⟨0, _⟩ => exact (Nat.zero_add _).symm
    | ⟨1, _⟩ => rfl

/-- The lane vector spread over rows and candidates reads the word `q` at lane `q`. -/
theorem lane_apply (r : Fin 512) (k : Fin 8) (q : Fin 512) :
    broadcastTo S512x8x512 lanes broadcasts_S1x1x512_S512x8x512 (ix3 r k q) = BitVec.ofNat 32 q.val := by
  refine (broadcastTo_apply _ broadcasts_S1x1x512_S512x8x512 (ix3 r k q) (ix3 (0 : Fin 1) (0 : Fin 1) q) fun a => ?_).trans (lanes_apply 0 0 q)
  match a with
  | ⟨0, _⟩ => rfl
  | ⟨1, _⟩ => rfl
  | ⟨2, _⟩ => rfl

/-- A comparison bit, widened and converted, is 1 where the two words agree and 0 where they differ. -/
theorem conv_eq (w l : BitVec 32) :
    FloatOps.sitofp (F := Ideal) .f32 ((IntOp.cmpi .eq w l).setWidth 32) = if w = l then 1 else 0 := by
  show ((((IntOp.cmpi .eq w l).setWidth 32).toInt : ℝ) : EReal) = _
  by_cases h : w = l
  · have e : IntOp.cmpi .eq w l = 1#1 := by
      show BitVec.ofBool (w == l) = 1#1
      rw [beq_iff_eq.mpr h]; rfl
    rw [e, if_pos h]
    have e2 : ((1#1 : BitVec 1).setWidth 32).toInt = 1 := by decide
    rw [e2, Int.cast_one, EReal.coe_one]
  · have e : IntOp.cmpi .eq w l = 0#1 := by
      show BitVec.ofBool (w == l) = 0#1
      rw [beq_eq_false_iff_ne.mpr h]; rfl
    rw [e, if_neg h]
    have e2 : ((0#1 : BitVec 1).setWidth 32).toInt = 0 := by decide
    rw [e2, Int.cast_zero, EReal.coe_zero]

/-- One converted word of a chunk: candidate `o + k` of row `r` against column `q`. -/
theorem bit_apply (x1 : IVec S512x64 32) (o : Nat) (hs : S512x64.Slices ![0, o] S512x8) (r : Fin 512) (k : Fin 8) (q : Fin 512)
    (hk : o + k.val < 64) :
    (sitofp (F := Ideal) .f32 (chunkBits x1 o hs)) (ix3 r k q) = Cert.KdRbf.hot (x1 (ix2 r ⟨o + k.val, hk⟩)) q := by
  show FloatOps.sitofp (F := Ideal) .f32 ((IntOp.cmpi .eq
      (broadcastTo S512x8x512 (shapeCast S512x8x1 (extractStridedSlice S512x8 ![0, o] x1 hs) shapeCasts_S512x8_S512x8x1) broadcasts_S512x8x1_S512x8x512 (ix3 r k q))
      (broadcastTo S512x8x512 lanes broadcasts_S1x1x512_S512x8x512 (ix3 r k q))).setWidth 32) = _
  rw [cand_apply x1 o hs r k q hk, lane_apply r k q, conv_eq]
  rfl

/-- One chunk's count at row `r`, column `q`: how many of its eight candidates name the column. -/
theorem chunk_apply (x1 : IVec S512x64 32) (o : Nat) (hs : S512x64.Slices ![0, o] S512x8) (ho : o + 8 ≤ 64) (r q : Fin 512) :
    chunkCount x1 o hs (ix2 r q)
      = ∑ k : Fin 8, Cert.KdRbf.hot (x1 (ix2 r ⟨o + k.val, Nat.lt_of_lt_of_le (Nat.add_lt_add_left k.isLt o) ho⟩)) q := by
  refine (Ideal.multiReduction_add_single (sitofp (F := Ideal) .f32 (chunkBits x1 o hs)) 0x00000000#32
    reduces_S512x8x512_S512x512 (.inl rfl) rfl (ix2 r q)).trans ?_
  show ∑ k : Fin 8, sitofp (F := Ideal) .f32 (chunkBits x1 o hs) (reduces_S512x8x512_S512x512.lift (ix2 r q) k) = _
  refine Finset.sum_congr rfl fun k _ => ?_
  have hl : reduces_S512x8x512_S512x512.lift (ix2 r q) k = ix3 r k q := by
    funext a
    match a with
    | ⟨0, _⟩ => rfl
    | ⟨1, _⟩ => rfl
    | ⟨2, _⟩ => rfl
  rw [hl]
  exact bit_apply x1 o hs r k q _

/-- One run of eight consecutive terms of a 64-term family, indexed through the pairing of `Fin 8 × Fin 8` with `Fin 64`. -/
theorem run_eq (f : Fin 64 → EReal) (a : Fin 8) (o : Nat) (ho : o = 8 * a.val) (hlt : ∀ k : Fin 8, o + k.val < 64) :
    ∑ y : Fin 8, f (finProdFinEquiv (a, y)) = ∑ k : Fin 8, f ⟨o + k.val, hlt k⟩ :=
  Finset.sum_congr rfl fun y _ => congrArg f (Fin.ext (by show y.val + 8 * a.val = o + y.val; omega))

/-- Sixty-four terms added up as eight runs of eight, the runs joined left to right from zero. -/
theorem sum_chunks (f : Fin 64 → EReal) (h0 : ∀ k : Fin 8, 0 + k.val < 64) (h1 : ∀ k : Fin 8, 8 + k.val < 64)
    (h2 : ∀ k : Fin 8, 16 + k.val < 64) (h3 : ∀ k : Fin 8, 24 + k.val < 64) (h4 : ∀ k : Fin 8, 32 + k.val < 64)
    (h5 : ∀ k : Fin 8, 40 + k.val < 64) (h6 : ∀ k : Fin 8, 48 + k.val < 64) (h7 : ∀ k : Fin 8, 56 + k.val < 64) :
    ((((((((0 + ∑ k : Fin 8, f ⟨0 + k.val, h0 k⟩) + ∑ k : Fin 8, f ⟨8 + k.val, h1 k⟩) + ∑ k : Fin 8, f ⟨16 + k.val, h2 k⟩)
      + ∑ k : Fin 8, f ⟨24 + k.val, h3 k⟩) + ∑ k : Fin 8, f ⟨32 + k.val, h4 k⟩) + ∑ k : Fin 8, f ⟨40 + k.val, h5 k⟩)
      + ∑ k : Fin 8, f ⟨48 + k.val, h6 k⟩) + ∑ k : Fin 8, f ⟨56 + k.val, h7 k⟩) = ∑ k : Fin 64, f k := by
  have e : ∑ k : Fin 64, f k = ∑ a : Fin 8, ∑ y : Fin 8, f (finProdFinEquiv (a, y)) :=
    (Equiv.sum_comp (finProdFinEquiv (m := 8) (n := 8)) f).symm.trans (Fintype.sum_prod_type _)
  rw [e, zero_add, Fin.sum_univ_eight (fun a => ∑ y : Fin 8, f (finProdFinEquiv (a, y))),
    run_eq f 0 0 rfl h0, run_eq f 1 8 rfl h1, run_eq f 2 16 rfl h2, run_eq f 3 24 rfl h3, run_eq f 4 32 rfl h4,
    run_eq f 5 40 rfl h5, run_eq f 6 48 rfl h6, run_eq f 7 56 rfl h7]

/-- The count × weight block at row `r`, column `q`: the number of the row's 64 candidates that name column `q`, times the weight block there. -/
theorem count_apply (x1 : Vec Ideal S512x64 .i32) (v45 : FVec Ideal S512x512 .f32) (r q : Fin 512) :
    k0_pay11 (F := Ideal) x1 v45 lanes (k0_pay9 (F := Ideal) x1 lanes (k0_pay7 (F := Ideal)) (k0_pay8 (F := Ideal) x1)) (k0_pay10 (F := Ideal) x1 lanes) (ix2 r q)
      = Cert.KdRbf.kCount (fun k => x1 (ix2 r k)) q * v45 (ix2 r q) := by
  have e : k0_pay11 (F := Ideal) x1 v45 lanes (k0_pay9 (F := Ideal) x1 lanes (k0_pay7 (F := Ideal)) (k0_pay8 (F := Ideal) x1)) (k0_pay10 (F := Ideal) x1 lanes) (ix2 r q)
      = ((((((((Ideal.ofBits .f32 0x00000000#32 + chunkCount x1 0 slices_S512x64_o0_0_S512x8 (ix2 r q))
          + chunkCount x1 8 slices_S512x64_o0_8_S512x8 (ix2 r q)) + chunkCount x1 16 slices_S512x64_o0_16_S512x8 (ix2 r q))
          + chunkCount x1 24 slices_S512x64_o0_24_S512x8 (ix2 r q)) + chunkCount x1 32 slices_S512x64_o0_32_S512x8 (ix2 r q))
          + chunkCount x1 40 slices_S512x64_o0_40_S512x8 (ix2 r q)) + chunkCount x1 48 slices_S512x64_o0_48_S512x8 (ix2 r q))
          + chunkCount x1 56 slices_S512x64_o0_56_S512x8 (ix2 r q)) * v45 (ix2 r q) := rfl
  rw [e, Ideal.ofBits_zero_f32, chunk_apply x1 0 _ (by omega) r q, chunk_apply x1 8 _ (by omega) r q, chunk_apply x1 16 _ (by omega) r q,
    chunk_apply x1 24 _ (by omega) r q, chunk_apply x1 32 _ (by omega) r q, chunk_apply x1 40 _ (by omega) r q,
    chunk_apply x1 48 _ (by omega) r q, chunk_apply x1 56 _ (by omega) r q]
  exact congrArg (· * v45 (ix2 r q)) (sum_chunks (fun k => Cert.KdRbf.hot (x1 (ix2 r k)) q) _ _ _ _ _ _ _ _)

end Cert.KernelIdeal.Counts

end
-- ==== Proof.Payload.lean ====
/-
  The stored block read at one entry.  Row r, coordinate j of what the body stores is: the sum over the 512 table
  columns of count × weight × (table row 3 + j), divided by the row's denominator — the column-wise row formula of
  point r, its 64 candidates and the table block.
-/
import proofs.«414026_j26345329393933_3_alg».proof.Proof.Spec
import proofs.«414026_j26345329393933_3_alg».proof.Proof.KIOut
import proofs.«414026_j26345329393933_3_alg».proof.Proof.Counts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.KernelIdeal.Fr
open Idealize.ShloMosaic Idealize.ShloMosaic.ValueIdx Idealize.SL.Sem

/-! ## Layout operations of this kernel, read at coordinates -/

/-- One column broadcast over many: an `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid as one row and broadcast over 512 rows reads, at `(r, q)`, the vector at `q`. -/
theorem rowBcast_apply {α : Type} (v : S512.Idx → α) (r q : Fin 512) :
    broadcastTo S512x512 (shapeCast S1x512 v shapeCasts_S512_S1x512) broadcasts_S1x512_S512x512 (ix2 r q) = v (ix1 q) :=
  (broadcastTo_1b_ab_apply _ _ r q).trans (shapeCast_a_1a_apply v _ (0 : Fin 1) q)

/-- Row `a` of the table block, cut out and laid as a vector, reads at `q` the table at `(a, q)`. -/
theorem tableRow_apply (x2 : Vec Ideal S8x512 .f32) (o : Nat) (h : S8x512.Slices ![o, 0] S1x512) (a : Fin 8) (ha : a.val = o)
    (q : Fin 512) :
    shapeCast S512 (extractStridedSlice S1x512 ![o, 0] (k0_pay2 (F := Ideal) x2) h) shapeCasts_S1x512_S512 (ix1 q) = x2 (ix2 a q) := by
  refine (shapeCast_1a_a_apply _ _ q).trans ?_
  refine (slice2_axis0_apply o _ h (0 : Fin 1) q a ha).trans ?_
  exact shapeCast_apply x2 _ _ _ rfl

/-- Column `k` of the point block, broadcast over the 512 table columns, reads at `(r, q)` the point `r`'s coordinate `k`. -/
theorem pointCol_apply (x0 : Vec Ideal S512x3 .f32) (c : Nat) (h : S512x3.Slices ![0, c] S512x1) (k : Fin 3) (hk : k.val = c)
    (r q : Fin 512) :
    broadcastTo S512x512 (extractStridedSlice S512x1 ![0, c] x0 h) broadcasts_S512x1_S512x512 (ix2 r q) = x0 (ix2 r k) :=
  (broadcastTo_a1_ab_apply _ _ r q).trans (slice2_axis1_apply c x0 h r (0 : Fin 1) k hk)

/-! ## The weight block -/

/-- The named reciprocal is the rational 1/200. -/
theorem inv_200 : Named.named (F := Ideal) Cert.KernelIdeal.κ "inv_200" (φ := .f32) 0x3BA3D70A#32 = ((1 / 200 : ℝ) : EReal) :=
  IdealRules.named_const.ideal_named_scalar _ _ _ _ rfl

/-- The weight block at row `r`, column `q`: the Gaussian of the squared distance from point `r` to column `q`'s control
    point, times the column's validity flag. -/
theorem weight_apply (x0 : Vec Ideal S512x3 .f32) (x2 : Vec Ideal S8x512 .f32) (r q : Fin 512) :
    k0_pay6 (F := Ideal) x0 x2 (ix2 r q) = Cert.KdRbf.kWeight (fun j => x0 (ix2 r j)) x2 q := by
  have hp0 := pointCol_apply x0 0 slices_S512x3_o0_0_S512x1 (0 : Fin 3) rfl r q
  have hp1 := pointCol_apply x0 1 slices_S512x3_o0_1_S512x1 (1 : Fin 3) rfl r q
  have hp2 := pointCol_apply x0 2 slices_S512x3_o0_2_S512x1 (2 : Fin 3) rfl r q
  have ht0 := (rowBcast_apply _ r q).trans (tableRow_apply x2 0 slices_S8x512_o0_0_S1x512 (0 : Fin 8) rfl q)
  have ht1 := (rowBcast_apply _ r q).trans (tableRow_apply x2 1 slices_S8x512_o1_0_S1x512 (1 : Fin 8) rfl q)
  have ht2 := (rowBcast_apply _ r q).trans (tableRow_apply x2 2 slices_S8x512_o2_0_S1x512 (2 : Fin 8) rfl q)
  have ht6 := (rowBcast_apply _ r q).trans (tableRow_apply x2 6 slices_S8x512_o6_0_S1x512 (6 : Fin 8) rfl q)
  show Ideal.exp ((Ideal.ofBits .f32 0x00000000#32 - (((_ - _) * (_ - _) + (_ - _) * (_ - _)) + (_ - _) * (_ - _)))
      * Named.named (F := Ideal) Cert.KernelIdeal.κ "inv_200" (φ := .f32) 0x3BA3D70A#32) * _ = _
  rw [hp0, hp1, hp2, ht0, ht1, ht2, ht6, Ideal.ofBits_zero_f32, inv_200]
  rfl

/-! ## Count × weight, its lane sums and the denominator -/

/-- The count × weight block at row `r`, column `q`. -/
theorem cw_apply (x0 : Vec Ideal S512x3 .f32) (x1 : Vec Ideal S512x64 .i32) (x2 : Vec Ideal S8x512 .f32) (r q : Fin 512) :
    cwBlk (F := Ideal) x0 x1 x2 (ix2 r q)
      = Cert.KdRbf.kCW (fun j => x0 (ix2 r j)) (fun k => x1 (ix2 r k)) x2 q := by
  refine (Counts.count_apply x1 (k0_pay6 (F := Ideal) x0 x2) r q).trans ?_
  rw [weight_apply]
  rfl

/-- The source index a lane sum reads: row `r` with column `q` inserted. -/
theorem lift_ix (h : S512x512.Reduces [1] S512) (r q : Fin 512) : h.lift (ix1 r) q = ix2 r q := by
  funext c
  match c with
  | ⟨0, _⟩ => exact Fin.ext rfl
  | ⟨1, _⟩ => exact Fin.ext rfl

/-- A sum over the lanes (axis 1) of a 512 × 512 block, read at row `r`: the sum over the 512 columns. -/
theorem laneSum_apply (v : FVec Ideal S512x512 .f32) (h : S512x512.Reduces [1] S512) (hφ : FKind.Formats .f32)
    (hacc : (0x00000000#32 : BitVec 32) = FKind.add.neutral .f32 hφ) (r : Fin 512) :
    multiReduction .add [1] S512 v 0x00000000#32 h hφ hacc (ix1 r) = ∑ q : Fin 512, v (ix2 r q) := by
  refine (Ideal.multiReduction_add_single v _ h hφ hacc (ix1 r)).trans ?_
  exact Finset.sum_congr rfl fun q _ => congrArg v (lift_ix h r q)

/-- A 512-vector laid as a column reads, at `(r, u)`, the vector at `r`. -/
theorem colCast_apply {α : Type} (v : S512.Idx → α) (r : Fin 512) (u : Fin 1) :
    shapeCast S512x1 v shapeCasts_S512_S512x1 (ix2 r u) = v (ix1 r) :=
  shapeCast_apply v _ _ _ (by
    have hu : u.val = 0 := by omega
    rw [Shape.rowMajor_val_two, Shape.rowMajor_val_one]
    show r.val = r.val * 1 + u.val
    rw [hu, Nat.mul_one, Nat.add_zero])

/-- The denominator block at row `r`: the weights' sum over the columns, replaced by one when below the threshold. -/
theorem den_apply (x0 : Vec Ideal S512x3 .f32) (x1 : Vec Ideal S512x64 .i32) (x2 : Vec Ideal S8x512 .f32) (r : Fin 512) (u : Fin 1) :
    denBlk (F := Ideal) x0 x1 x2 (ix2 r u)
      = Cert.KdRbf.den (Cert.KdRbf.kSum (fun j => x0 (ix2 r j)) (fun k => x1 (ix2 r k)) x2) := by
  have hs : shapeCast S512x1 (multiReduction .add [1] S512 (cwBlk (F := Ideal) x0 x1 x2) 0x00000000#32 reduces_S512x512_S512 (.inl rfl) rfl)
      shapeCasts_S512_S512x1 (ix2 r u)
      = Cert.KdRbf.kSum (fun j => x0 (ix2 r j)) (fun k => x1 (ix2 r k)) x2 := by
    refine (colCast_apply _ r u).trans ((laneSum_apply _ _ _ _ r).trans ?_)
    exact Finset.sum_congr rfl fun q _ => cw_apply x0 x1 x2 r q
  show Scalar.select (Ideal.cmp .olt _ (Ideal.ofBits .f32 0x3727C5AC#32)) (Ideal.ofBits .f32 0x3F800000#32) _ = _
  rw [hs]
  unfold Cert.KdRbf.den
  show Scalar.select (BitVec.ofBool (decide (_ < Cert.KdRbf.thr))) Cert.KdRbf.one _ = _
  by_cases hlt : Cert.KdRbf.kSum (fun j => x0 (ix2 r j)) (fun k => x1 (ix2 r k)) x2 < Cert.KdRbf.thr
  · rw [if_pos hlt, decide_eq_true hlt]; exact select_one _ _
  · rw [if_neg hlt, decide_eq_false hlt]; exact select_zero _ _

/-! ## The stored block -/

/-- Three 512 × 1 columns joined along axis 1, read at `(r, j)`: column `j` at `(r, 0)`. -/
theorem concat3_apply {α : Type} (c0 c1 c2 : S512x1.Idx → α) (h : Shape.Concatenates [S512x1, S512x1, S512x1] S512x3 1)
    (r : Fin 512) (j : Fin 3) :
    concatenate S512x3 1 [⟨S512x1, c0⟩, ⟨S512x1, c1⟩, ⟨S512x1, c2⟩] h (ix2 r j)
      = (match j with | ⟨0, _⟩ => c0 | ⟨1, _⟩ => c1 | ⟨2, _⟩ => c2) (ix2 r (0 : Fin 1)) := by
  have hi : ∀ (j : Fin 3) (b : Fin S512x1.rank), b.cast (rfl : S512x1.rank = S512x3.rank) ≠ (1 : Fin S512x3.rank) →
      ((ix2 r (0 : Fin 1) : S512x1.Idx) b).val = ((ix2 r j : S512x3.Idx) (b.cast rfl)).val := fun j b hb => by
    match b with
    | ⟨0, _⟩ => rfl
    | ⟨1, _⟩ => exact absurd (Fin.ext rfl) hb
  match j with
  | ⟨0, _⟩ =>
    exact concatenate_apply_piece (1 : Fin S512x3.rank) [⟨S512x1, c0⟩, ⟨S512x1, c1⟩, ⟨S512x1, c2⟩] h _ 0
      (show (0 : Nat) < 3 by omega) S512x1 c0 rfl rfl 0 rfl (ix2 r (0 : Fin 1)) (hi _) rfl
  | ⟨1, _⟩ =>
    exact concatenate_apply_piece (1 : Fin S512x3.rank) [⟨S512x1, c0⟩, ⟨S512x1, c1⟩, ⟨S512x1, c2⟩] h _ 1
      (show (1 : Nat) < 3 by omega) S512x1 c1 rfl rfl 1 rfl (ix2 r (0 : Fin 1)) (hi _) rfl
  | ⟨2, _⟩ =>
    exact concatenate_apply_piece (1 : Fin S512x3.rank) [⟨S512x1, c0⟩, ⟨S512x1, c1⟩, ⟨S512x1, c2⟩] h _ 2
      (show (2 : Nat) < 3 by omega) S512x1 c2 rfl rfl 2 rfl (ix2 r (0 : Fin 1)) (hi _) rfl

/-- One weighted column sum: count × weight times a displacement row of the table, summed over the columns. -/
theorem dispSum_apply (x0 : Vec Ideal S512x3 .f32) (x1 : Vec Ideal S512x64 .i32) (x2 : Vec Ideal S8x512 .f32)
    (o : Nat) (h : S8x512.Slices ![o, 0] S1x512) (a : Fin 8) (ha : a.val = o) (r : Fin 512) (u : Fin 1) :
    shapeCast S512x1 (multiReduction .add [1] S512
        (mulf (cwBlk (F := Ideal) x0 x1 x2)
          (broadcastTo S512x512 (shapeCast S1x512
            (shapeCast S512 (extractStridedSlice S1x512 ![o, 0] (k0_pay2 (F := Ideal) x2) h) shapeCasts_S1x512_S512)
            shapeCasts_S512_S1x512) broadcasts_S1x512_S512x512))
        0x00000000#32 reduces_S512x512_S512 (.inl rfl) rfl) shapeCasts_S512_S512x1 (ix2 r u)
      = ∑ q : Fin 512, Cert.KdRbf.kCW (fun j => x0 (ix2 r j)) (fun k => x1 (ix2 r k)) x2 q * x2 (ix2 a q) := by
  refine (colCast_apply _ r u).trans ((laneSum_apply _ _ _ _ r).trans ?_)
  refine Finset.sum_congr rfl fun q _ => ?_
  show cwBlk (F := Ideal) x0 x1 x2 (ix2 r q) * _ = _
  rw [cw_apply, (rowBcast_apply _ r q).trans (tableRow_apply x2 o h a ha q)]

/-- The stored block at row `r`, coordinate `j` is the column-wise row formula of the row's point, its candidates and the table block. -/
theorem outBlk_apply (x0 : Vec Ideal S512x3 .f32) (x1 : Vec Ideal S512x64 .i32) (x2 : Vec Ideal S8x512 .f32) (r : Fin 512) (j : Fin 3) :
    outBlk (F := Ideal) x0 x1 x2 (ix2 r j)
      = Cert.KdRbf.rowSpec (fun j => x0 (ix2 r j)) (fun k => x1 (ix2 r k)) x2 j := by
  unfold Cert.KdRbf.rowSpec
  show Ideal.div (concatenate S512x3 1 [⟨S512x1, _⟩, ⟨S512x1, _⟩, ⟨S512x1, _⟩] concatenates_S512x1_S512x1_S512x1_S512x3_d1 (ix2 r j))
      (broadcastTo S512x3 (denBlk (F := Ideal) x0 x1 x2) broadcasts_S512x1_S512x3 (ix2 r j)) = _
  rw [broadcastTo_a1_ab_apply, den_apply, concat3_apply]
  congr 1
  match j with
  | ⟨0, _⟩ => exact dispSum_apply x0 x1 x2 3 slices_S8x512_o3_0_S1x512 (Cert.KdRbf.dRow 0) rfl r 0
  | ⟨1, _⟩ => exact dispSum_apply x0 x1 x2 4 slices_S8x512_o4_0_S1x512 (Cert.KdRbf.dRow 1) rfl r 0
  | ⟨2, _⟩ => exact dispSum_apply x0 x1 x2 5 slices_S8x512_o5_0_S1x512 (Cert.KdRbf.dRow 2) rfl r 0

end Cert.KernelIdeal.Payload

end
-- ==== Proof.HostTable.lean ====
/-
  The table the region finds.

  Before the region the program pads each of the two 500 × 3 argument tables with twelve zero rows, cuts each of
  their three columns out and lays it as a 1 × 512 row, builds a row of validity flags (column index below 500) and a
  zero row, and joins the eight rows along the first axis.  Read at row `a`, column `q`: a join of one-row pieces
  reads piece `a`; a vector laid as a row reads entry `q`; a flattened 512 × 1 column reads `(q, 0)`; the slice at
  column `j` reads `(q, j)` of the padded table; the padded table reads the argument table below row 500 and the
  padding value — the zero word converted, which is zero — from row 500 on.  That is the specification's `tab`.
-/
import proofs.«414026_j26345329393933_3_alg».proof.Proof.Spec
import proofs.«414026_j26345329393933_3_alg».proof.Proof.KIV
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost
import Idealize.ShloMosaic.Lib.IdealHost

noncomputable section

open scoped BigOperators

namespace Cert.KernelIdeal.HostTable

open Cert.KernelIdeal Cert.KernelIdeal.Gen Cert.KernelIdeal.Fr
open Idealize.ShloMosaic Idealize.ShloMosaic.ValueIdx Idealize.SL.Sem
open Idealize.ShloMosaic.TcCoe

/-! ## An eight-operand operation's result -/

/-- An eight-operand operation's result with each operand's contents at its own reference. -/
theorem nary8_result {Val : EltTy → Type} {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (F : Valuation τ sig Val) :
    (StableHlo.nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) := by
  rw [StableHlo.nary_result]; congr 1; funext k; fin_cases k <;> rfl

/-! ## The operations read at an index -/

/-- Eight one-row pieces joined along the first axis: row `a` of the result is piece `a`. -/
theorem concat8_apply {α : Type} (R0 R1 R2 R3 R4 R5 R6 R7 : S1x512.Idx → α)
    (h : Shape.Concatenates [S1x512, S1x512, S1x512, S1x512, S1x512, S1x512, S1x512, S1x512] S8x512 0)
    (a : Fin 8) (q : Fin 512) :
    concatenate S8x512 0 [⟨S1x512, R0⟩, ⟨S1x512, R1⟩, ⟨S1x512, R2⟩, ⟨S1x512, R3⟩, ⟨S1x512, R4⟩, ⟨S1x512, R5⟩, ⟨S1x512, R6⟩, ⟨S1x512, R7⟩] h (ix2 a q)
      = (![R0, R1, R2, R3, R4, R5, R6, R7] : Fin 8 → S1x512.Idx → α) a (ix2 (0 : Fin 1) q) := by
  show concatenate S8x512 0 (List.ofFn fun n : Fin 8 => (⟨S1x512, (![R0, R1, R2, R3, R4, R5, R6, R7] : Fin 8 → S1x512.Idx → α) n⟩ : (s : Shape) × (s.Idx → α))) h (ix2 a q) = _
  exact concatenate_ofFn_unit_apply (t := S8x512) (s₁ := S1x512) (0 : Fin 2) (![R0, R1, R2, R3, R4, R5, R6, R7] : Fin 8 → S1x512.Idx → α) h rfl rfl (ix2 a q) a rfl (ix2 (0 : Fin 1) q)
    (fun b hb => match b, hb with
      | ⟨0, _⟩, hb => absurd rfl hb
      | ⟨1, _⟩, _ => rfl)

/-- Column `j` of a 512 × 3 table cut out, flattened and laid as a 1 × 512 row: entry `q` is the table's `(q, j)`. -/
theorem row_apply {α : Type} (X : S512x3.Idx → α) (o : Nat) (hs : S512x3.Slices ![0, o] S512x1) (j : Fin 3) (hj : j.val = o) (q : Fin 512) :
    broadcastInDim S1x512 ![1] bcast_S512_S1x512_1
        (shapeCast S512 (extractStridedSlice S512x1 ![0, o] X hs) shapeCasts_S512x1_S512) (ix2 (0 : Fin 1) q)
      = X (ix2 q j) := by
  refine (broadcastInDim_apply _ _ _ (ix2 (0 : Fin 1) q) (ix1 q) (fun a => match a with | ⟨0, _⟩ => rfl)).trans ?_
  refine (shapeCast_apply _ _ (ix1 q) (ix2 q (0 : Fin 1)) (by
    rw [Shape.rowMajor_val_two, Shape.rowMajor_val_one]; show q.val * 1 + 0 = q.val; omega)).trans ?_
  exact extractStridedSlice_apply _ _ hs (ix2 q (0 : Fin 1)) (ix2 q j) (fun a => match a with
    | ⟨0, _⟩ => by show q.val = 0 + q.val; omega
    | ⟨1, _⟩ => by show j.val = o + 0; omega)

/-- A 500-row table padded with twelve rows behind: inside the first 500 rows the table, else the padding value. -/
theorem pad_apply {α : Type} (X : S500x3.Idx → α) (z : S_.Idx → α) (q : Fin 512) (j : Fin 3) :
    pad S512x3 ![0, 0] ![12, 0] ![0, 0] X z pads_S500x3_S512x3_0120_000 h_S_ (ix2 q j)
      = if h : q.val < 500 then X (ix2 (⟨q.val, h⟩ : Fin 500) j) else z (Shape.Idx.first h_S_) := by
  by_cases h : q.val < 500
  · rw [dif_pos h]
    exact pad_apply_of_inside _ _ _ X z _ _ (ix2 q j) (ix2 (⟨q.val, h⟩ : Fin 500) j) (fun a => match a with
      | ⟨0, _⟩ => by show q.val = 0 + q.val * (0 + 1); omega
      | ⟨1, _⟩ => by show j.val = 0 + j.val * (0 + 1); omega)
  · rw [dif_neg h]
    exact pad_apply_of_not_inside _ _ _ X z _ _ (ix2 q j) (0 : Fin 2) (by
      show ¬(0 ≤ q.val ∧ (q.val - 0) % (0 + 1) = 0 ∧ (q.val - 0) / (0 + 1) < 500)
      omega)

/-- The padding value: the zero word converted, which is zero. -/
theorem padval_apply (i : S_.Idx) : (sitofp (F := Ideal) .f32 (constantI S_ 32 0#32) : S_.Idx → EReal) i = 0 := by
  show (((0#32 : BitVec 32).toInt : ℝ) : EReal) = 0
  rw [show (0#32 : BitVec 32).toInt = 0 from by decide, Int.cast_zero, EReal.coe_zero]

/-- The validity flags: column `q` carries 1 when `q < 500`, else 0. -/
theorem flags_apply (q : Fin 512) :
    (uitofp (F := Ideal) .f32 (cmpi .slt (iotaInDim S512 32 0) (broadcastInDim S512 ![] bcast_S_S512 (constantI S_ 32 500#32))) : S512.Idx → EReal) (ix1 q)
      = if q.val < 500 then 1 else 0 := by
  have hq := q.isLt
  show (((IntOp.cmpi .slt (BitVec.ofNat 32 q.val) (500#32)).toNat : ℝ) : EReal) = _
  have key := StableHlo.Predicate.slt_iff_toNat (a := BitVec.ofNat 32 q.val) (b := 500#32)
    (by rw [BitVec.toNat_ofNat]; omega) (by decide)
  rw [BitVec.toNat_ofNat, Nat.mod_eq_of_lt (by omega), show (500#32 : BitVec 32).toNat = 500 from rfl] at key
  by_cases h : q.val < 500
  · rw [if_pos h, key.mpr h]
    show (((1 : ℕ) : ℝ) : EReal) = 1
    rw [Nat.cast_one, EReal.coe_one]
  · rw [if_neg h, eq_zero_of_ne_one (fun e => h (key.mp e))]
    show (((0 : ℕ) : ℝ) : EReal) = 0
    rw [Nat.cast_zero, EReal.coe_zero]

section Buffers

variable (m : (ℓ : Loc nD τ sig) → Buf (Elt Ideal) ℓ) (c : Dev nD)

/-! ## The buffers as the operations' composed terms -/

/-- The padding value of both tables: the zero word converted. -/
abbrev padval : S_.Idx → EReal := sitofp (F := Ideal) .f32 (constantI S_ 32 0#32)

/-- A table padded from 500 to 512 rows. -/
abbrev padT (X : S500x3.Idx → EReal) : S512x3.Idx → EReal :=
  pad S512x3 ![0, 0] ![12, 0] ![0, 0] X padval pads_S500x3_S512x3_0120_000 h_S_

/-- The padded table at an index is the specification's padded table. -/
theorem padT_apply (X : S500x3.Idx → EReal) (q : Fin 512) (j : Fin 3) : padT X (ix2 q j) = Cert.KdRbf.padded X q j := by
  refine (pad_apply X padval q j).trans ?_
  unfold Cert.KdRbf.padded
  by_cases h : q.val < 500
  · rw [dif_pos h, dif_pos h]
  · rw [dif_neg h, dif_neg h]; exact padval_apply _

/-- A vector laid as a 1 × 512 row: entry `q` of the row is entry `q` of the vector. -/
theorem bcast_row_apply {α : Type} (x : S512.Idx → α) (q : Fin 512) :
    broadcastInDim S1x512 ![1] bcast_S512_S1x512_1 x (ix2 (0 : Fin 1) q) = x (ix1 q) :=
  broadcastInDim_apply _ _ _ (ix2 (0 : Fin 1) q) (ix1 q) (fun a => match a with | ⟨0, _⟩ => rfl)

theorem V_v19 :
    (V (F := Ideal) m c main_v19 : S1x512.Idx → EReal)
      = broadcastInDim S1x512 ![1] bcast_S512_S1x512_1
          (shapeCast S512 (extractStridedSlice S512x1 ![0, 0] (padT (m ((c : Thread nD τ).loc main_arg1))) slices_S512x3_S512x1_0_0) shapeCasts_S512x1_S512) := by
  dsimp only [V]
  simp only [hostOps0, hostOps0_1, hostOps0_2, hostOps0_3, hostOps0_4, List.flatten_cons, List.flatten_nil, List.append_nil, List.cons_append, List.nil_append]
  after_results
  rfl

theorem V_v20 :
    (V (F := Ideal) m c main_v20 : S1x512.Idx → EReal)
      = broadcastInDim S1x512 ![1] bcast_S512_S1x512_1
          (shapeCast S512 (extractStridedSlice S512x1 ![0, 1] (padT (m ((c : Thread nD τ).loc main_arg1))) slices_S512x3_S512x1_0_1) shapeCasts_S512x1_S512) := by
  dsimp only [V]
  simp only [hostOps0, hostOps0_1, hostOps0_2, hostOps0_3, hostOps0_4, List.flatten_cons, List.flatten_nil, List.append_nil, List.cons_append, List.nil_append]
  after_results
  rfl

theorem V_v21 :
    (V (F := Ideal) m c main_v21 : S1x512.Idx → EReal)
      = broadcastInDim S1x512 ![1] bcast_S512_S1x512_1
          (shapeCast S512 (extractStridedSlice S512x1 ![0, 2] (padT (m ((c : Thread nD τ).loc main_arg1))) slices_S512x3_S512x1_0_2) shapeCasts_S512x1_S512) := by
  dsimp only [V]
  simp only [hostOps0, hostOps0_1, hostOps0_2, hostOps0_3, hostOps0_4, List.flatten_cons, List.flatten_nil, List.append_nil, List.cons_append, List.nil_append]
  after_results
  rfl

theorem V_v22 :
    (V (F := Ideal) m c main_v22 : S1x512.Idx → EReal)
      = broadcastInDim S1x512 ![1] bcast_S512_S1x512_1
          (shapeCast S512 (extractStridedSlice S512x1 ![0, 0] (padT (m ((c : Thread nD τ).loc main_arg2))) slices_S512x3_S512x1_0_0) shapeCasts_S512x1_S512) := by
  dsimp only [V]
  simp only [hostOps0, hostOps0_1, hostOps0_2, hostOps0_3, hostOps0_4, List.flatten_cons, List.flatten_nil, List.append_nil, List.cons_append, List.nil_append]
  after_results
  rfl

theorem V_v23 :
    (V (F := Ideal) m c main_v23 : S1x512.Idx → EReal)
      = broadcastInDim S1x512 ![1] bcast_S512_S1x512_1
          (shapeCast S512 (extractStridedSlice S512x1 ![0, 1] (padT (m ((c : Thread nD τ).loc main_arg2))) slices_S512x3_S512x1_0_1) shapeCasts_S512x1_S512) := by
  dsimp only [V]
  simp only [hostOps0, hostOps0_1, hostOps0_2, hostOps0_3, hostOps0_4, List.flatten_cons, List.flatten_nil, List.append_nil, List.cons_append, List.nil_append]
  after_results
  rfl

theorem V_v24 :
    (V (F := Ideal) m c main_v24 : S1x512.Idx → EReal)
      = broadcastInDim S1x512 ![1] bcast_S512_S1x512_1
          (shapeCast S512 (extractStridedSlice S512x1 ![0, 2] (padT (m ((c : Thread nD τ).loc main_arg2))) slices_S512x3_S512x1_0_2) shapeCasts_S512x1_S512) := by
  dsimp only [V]
  simp only [hostOps0, hostOps0_1, hostOps0_2, hostOps0_3, hostOps0_4, List.flatten_cons, List.flatten_nil, List.append_nil, List.cons_append, List.nil_append]
  after_results
  rfl

theorem V_v25 :
    (V (F := Ideal) m c main_v25 : S1x512.Idx → EReal)
      = broadcastInDim S1x512 ![1] bcast_S512_S1x512_1
          (uitofp (F := Ideal) .f32 (cmpi .slt (iotaInDim S512 32 0) (broadcastInDim S512 ![] bcast_S_S512 (constantI S_ 32 500#32)))) := by
  dsimp only [V]
  simp only [hostOps0, hostOps0_1, hostOps0_2, hostOps0_3, hostOps0_4, List.flatten_cons, List.flatten_nil, List.append_nil, List.cons_append, List.nil_append]
  after_results

theorem V_v26 :
    (V (F := Ideal) m c main_v26 : S1x512.Idx → EReal)
      = broadcastInDim S1x512 ![1] bcast_S512_S1x512_1 (broadcastInDim S512 ![] bcast_S_S512 (constant (F := Ideal) S_ .f32 0x00000000#32)) := by
  dsimp only [V]
  simp only [hostOps0, hostOps0_1, hostOps0_2, hostOps0_3, hostOps0_4, List.flatten_cons, List.flatten_nil, List.append_nil, List.cons_append, List.nil_append]
  after_results

/-- The table is the eight rows joined along the first axis. -/
theorem V_v27 :
    (V (F := Ideal) m c main_v27 : S8x512.Idx → EReal)
      = concatenate S8x512 0
          [⟨S1x512, (V (F := Ideal) m c main_v19 : S1x512.Idx → EReal)⟩, ⟨S1x512, (V (F := Ideal) m c main_v20 : S1x512.Idx → EReal)⟩,
           ⟨S1x512, (V (F := Ideal) m c main_v21 : S1x512.Idx → EReal)⟩, ⟨S1x512, (V (F := Ideal) m c main_v22 : S1x512.Idx → EReal)⟩,
           ⟨S1x512, (V (F := Ideal) m c main_v23 : S1x512.Idx → EReal)⟩, ⟨S1x512, (V (F := Ideal) m c main_v24 : S1x512.Idx → EReal)⟩,
           ⟨S1x512, (V (F := Ideal) m c main_v25 : S1x512.Idx → EReal)⟩, ⟨S1x512, (V (F := Ideal) m c main_v26 : S1x512.Idx → EReal)⟩]
          concatenates_S1x512_S1x512_S1x512_S1x512_S1x512_S1x512_S1x512_S1x512_S8x512_d0 := by
  dsimp only [V]
  simp only [hostOps0, hostOps0_1, hostOps0_2, hostOps0_3, hostOps0_4, List.flatten_cons, List.flatten_nil, List.append_nil, List.cons_append, List.nil_append]
  simp only [StableHlo.after_cons, StableHlo.after_nil]
  rw [nary8_result]
  repeat (rw [StableHlo.nary_result_ne]; rotate_left; decide)
  rfl

end Buffers

/-! ## The table -/

/-- The table the region finds: the two argument tables padded and laid out row by row, the validity flags, a zero row. -/
theorem V_table (m : (ℓ : Loc nD τ sig) → Buf (Elt Ideal) ℓ) (c : Dev nD) :
    (V (F := Ideal) m c main_v27 : S8x512.Idx → EReal)
      = Cert.KdRbf.tab (m ((c : Thread nD τ).loc main_arg1)) (m ((c : Thread nD τ).loc main_arg2)) := by
  funext i
  obtain ⟨a, q, rfl⟩ : ∃ (a : Fin 8) (q : Fin 512), i = ix2 a q := ⟨i 0, i 1, eq_ix2 i⟩
  rw [V_v27]
  refine (concat8_apply _ _ _ _ _ _ _ _ _ a q).trans ?_
  fin_cases a
  · show (V (F := Ideal) m c main_v19 : S1x512.Idx → EReal) (ix2 (0 : Fin 1) q) = Cert.KdRbf.padded (m ((c : Thread nD τ).loc main_arg1)) q 0
    rw [V_v19]; exact (row_apply _ 0 _ 0 rfl q).trans (padT_apply _ q 0)
  · show (V (F := Ideal) m c main_v20 : S1x512.Idx → EReal) (ix2 (0 : Fin 1) q) = Cert.KdRbf.padded (m ((c : Thread nD τ).loc main_arg1)) q 1
    rw [V_v20]; exact (row_apply _ 1 _ 1 rfl q).trans (padT_apply _ q 1)
  · show (V (F := Ideal) m c main_v21 : S1x512.Idx → EReal) (ix2 (0 : Fin 1) q) = Cert.KdRbf.padded (m ((c : Thread nD τ).loc main_arg1)) q 2
    rw [V_v21]; exact (row_apply _ 2 _ 2 rfl q).trans (padT_apply _ q 2)
  · show (V (F := Ideal) m c main_v22 : S1x512.Idx → EReal) (ix2 (0 : Fin 1) q) = Cert.KdRbf.padded (m ((c : Thread nD τ).loc main_arg2)) q 0
    rw [V_v22]; exact (row_apply _ 0 _ 0 rfl q).trans (padT_apply _ q 0)
  · show (V (F := Ideal) m c main_v23 : S1x512.Idx → EReal) (ix2 (0 : Fin 1) q) = Cert.KdRbf.padded (m ((c : Thread nD τ).loc main_arg2)) q 1
    rw [V_v23]; exact (row_apply _ 1 _ 1 rfl q).trans (padT_apply _ q 1)
  · show (V (F := Ideal) m c main_v24 : S1x512.Idx → EReal) (ix2 (0 : Fin 1) q) = Cert.KdRbf.padded (m ((c : Thread nD τ).loc main_arg2)) q 2
    rw [V_v24]; exact (row_apply _ 2 _ 2 rfl q).trans (padT_apply _ q 2)
  · show (V (F := Ideal) m c main_v25 : S1x512.Idx → EReal) (ix2 (0 : Fin 1) q) = (if q.val < 500 then 1 else 0 : EReal)
    rw [V_v25]; exact (bcast_row_apply _ q).trans (flags_apply q)
  · show (V (F := Ideal) m c main_v26 : S1x512.Idx → EReal) (ix2 (0 : Fin 1) q) = (0 : EReal)
    rw [V_v26]
    refine (bcast_row_apply _ q).trans ((broadcastInDim_scalar_apply _ _ (ix1 q)).trans ?_)
    show Ideal.ofBits .f32 0x00000000#32 = 0
    exact Ideal.ofBits_zero_f32

end Cert.KernelIdeal.HostTable

end
-- ==== Proof.KIBlocks.lean ====
/-
  From blocks to the array.  Point t of the 2048 writes back rows 512·t … 512·t + 511 of the result; the row it
  computes at local row r reads row 512·t + r of the points and of the candidate words and the whole table, so the
  2048 blocks are the restrictions of ONE whole-array function, and together they cover the result array.
-/
import proofs.«414026_j26345329393933_3_alg».proof.Proof.KIFrame
import proofs.«414026_j26345329393933_3_alg».proof.Proof.Payload
import proofs.«414026_j26345329393933_3_alg».proof.Proof.HostTable
import proofs.«414026_j26345329393933_3_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KdRbf (rowSpec ptRow idRow)

variable (m : (ℓ : Loc nD τ sig) → Buf (Elt Ideal) ℓ) (ρ : Dev nD → PrngReg)

theorem hz : (![0, 0] : Fin 2 → Nat) = fun _ => 0 := funext fun a => by fin_cases a <;> rfl

/-- The result array over ANY table: row `n` is the column-wise row formula of point `n`, its candidates and the table. -/
abbrev GT (P : S1048576x3.Idx → EReal) (I : S1048576x64.Idx → BitVec 32) (T : S8x512.Idx → EReal) : S1048576x3.Idx → EReal :=
  fun i => rowSpec (ptRow P (i 0)) (idRow I (i 0)) T (i 1)

/-- The printed index maps over the grid: the points', the candidates' and the result's blocks move together, one
    block of 512 rows per point; the table's block never moves. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A stored block's row over whole arrays: if the block's row `r` of points and of candidates is row `n` of the arrays. -/
theorem blk_row (x0 : Vec Ideal S512x3 .f32) (x1 : Vec Ideal S512x64 .i32) (x2 : Vec Ideal S8x512 .f32)
    (P : S1048576x3.Idx → EReal) (I : S1048576x64.Idx → BitVec 32) (n : Fin 1048576) (r : Fin 512) (j : Fin 3)
    (h0 : ∀ j', x0 (ix2 r j') = P (ix2 n j')) (h1 : ∀ k, x1 (ix2 r k) = I (ix2 n k)) :
    outBlk (F := Ideal) x0 x1 x2 (ix2 r j) = rowSpec (ptRow P n) (idRow I n) x2 j := by
  rw [Cert.KernelIdeal.Payload.outBlk_apply]
  congr 1
  · funext j'; exact h0 j'
  · funext k; exact h1 k

theorem flushed_eq (c : Dev nD) (t : Fin cfg0.N) :
    (dats m 0 c).flushed 3 t = ((cfg0.win 3).blk t).view.read (Elt Ideal) (GT (V m c main_arg0) (V m c main_arg3) (V m c main_v27)) := by
  show (cfg0.win 3).cut (grid0.coords t) ((dats m 0 c).after 3 t) = _
  rw [after0_3]
  unfold out0_3
  rw [View.canon_unit_zero hz]
  simp only [View.ld_unit_zero (S := S512x3) hz, View.ld_unit_zero (S := S512x64) hz, View.ld_unit_zero (S := S8x512) hz]
  funext y
  obtain ⟨r, j, rfl⟩ : ∃ (r : Fin 512) (j : Fin 3), y = (ix2 r j : S512x3.Idx) := ⟨y 0, y 1, eq_ix2 (n0 := 512) (n1 := 3) y⟩
  obtain ⟨e00, e01, e10, e11, e20, e21, e30, e31⟩ := idx_facts t
  have ht : t.val < 2048 := lt_of_lt_of_eq t.isLt N_0
  have hemb : ((cfg0.win 3).blk t).view.emb (ix2 r j) = (ix2 (⟨t.val * 512 + r.val, by omega⟩ : Fin 1048576) j : S1048576x3.Idx) := by
    funext a; apply Fin.ext
    match a with
    | ⟨0, _⟩ => show win0_3.index t (0 : Fin 2) * 512 + 1 * r.val = t.val * 512 + r.val; omega
    | ⟨1, _⟩ => show win0_3.index t (1 : Fin 2) * 3 + 1 * j.val = j.val; omega
  show outBlk (iblk m c 0 t) (iblk m c 1 t) (iblk m c 2 t) (ix2 r j)
    = GT (V m c main_arg0) (V m c main_arg3) (V m c main_v27) (((cfg0.win 3).blk t).view.emb (ix2 r j))
  rw [hemb]
  have htab : (iblk m c 2 t : S8x512.Idx → EReal) = V m c main_v27 := by
    funext y2
    show V m c main_v27 (((cfg0.win 2).blk t).view.emb y2) = V m c main_v27 y2
    refine congrArg _ ?_
    funext a; apply Fin.ext
    match a with
    | ⟨0, _⟩ => show win0_2.index t (0 : Fin 2) * 8 + 1 * (y2 0).val = (y2 0).val; omega
    | ⟨1, _⟩ => show win0_2.index t (1 : Fin 2) * 512 + 1 * (y2 1).val = (y2 1).val; omega
  refine (blk_row (iblk m c 0 t) (iblk m c 1 t) (iblk m c 2 t) (V m c main_arg0) (V m c main_arg3) ⟨t.val * 512 + r.val, by omega⟩ r j ?_ ?_).trans ?_
  · intro j'
    show V m c main_arg0 (((cfg0.win 0).blk t).view.emb (ix2 r j')) = V m c main_arg0 (ix2 (⟨t.val * 512 + r.val, by omega⟩ : Fin 1048576) j')
    refine congrArg _ ?_
    funext a; apply Fin.ext
    match a with
    | ⟨0, _⟩ => show win0_0.index t (0 : Fin 2) * 512 + 1 * r.val = t.val * 512 + r.val; omega
    | ⟨1, _⟩ => show win0_0.index t (1 : Fin 2) * 3 + 1 * j'.val = j'.val; omega
  · intro k
    show V m c main_arg3 (((cfg0.win 1).blk t).view.emb (ix2 r k)) = V m c main_arg3 (ix2 (⟨t.val * 512 + r.val, by omega⟩ : Fin 1048576) k)
    refine congrArg _ ?_
    funext a; apply Fin.ext
    match a with
    | ⟨0, _⟩ => show win0_1.index t (0 : Fin 2) * 512 + 1 * r.val = t.val * 512 + r.val; omega
    | ⟨1, _⟩ => show win0_1.index t (1 : Fin 2) * 64 + 1 * k.val = k.val; omega
  · rw [htab]

/-- An index of the result array is in point `t`'s block iff its row lies in the block's 512 rows. -/
theorem mem_blk (t : Fin cfg0.N) (i : S1048576x3.Idx) :
    i ∈ ((cfg0.win 3).blk t).view.set ↔ ∀ a : Fin 2, win0_3.index t a * S512x3.size a ≤ (i a).val ∧ (i a).val < win0_3.index t a * S512x3.size a + S512x3.size a := by
  show i ∈ ((View.whole main_v28).slice (win0_3.rect t)).set ↔ _
  rw [View.set_slice_whole, Rect.mem_set_unit]
  exact Iff.rfl

/-- Every row of the result lies in the block of the point that is its row number divided by 512. -/
theorem cover (i : S1048576x3.Idx) : ∃ t : Fin cfg0.N, (cfg0.win 3).flush t = true ∧ i ∈ ((cfg0.win 3).blk t).view.set := by
  have hi0 : (i 0).val < 1048576 := (i 0).isLt
  have hi1 : (i 1).val < 3 := (i 1).isLt
  have hN : (i 0).val / 512 < cfg0.N := lt_of_lt_of_eq (by omega : (i 0).val / 512 < 2048) N_0.symm
  refine ⟨⟨(i 0).val / 512, hN⟩, flush0_3 _, ?_⟩
  rw [mem_blk]
  obtain ⟨e00, e01, e10, e11, e20, e21, e30, e31⟩ := idx_facts ⟨(i 0).val / 512, hN⟩
  intro a
  match a with
  | ⟨0, _⟩ => show win0_3.index ⟨(i 0).val / 512, hN⟩ (0 : Fin 2) * 512 ≤ (i 0).val ∧ (i 0).val < win0_3.index ⟨(i 0).val / 512, hN⟩ (0 : Fin 2) * 512 + 512; simp only [] at e30; omega
  | ⟨1, _⟩ => show win0_3.index ⟨(i 0).val / 512, hN⟩ (1 : Fin 2) * 3 ≤ (i 1).val ∧ (i 1).val < win0_3.index ⟨(i 0).val / 512, hN⟩ (1 : Fin 2) * 3 + 3; omega

/-- The result array after the run, over the arrays as the region finds them. -/
theorem finalV (c : Dev nD) : (dats m 0 c).arrAt 3 cfg0.N = GT (V m c main_arg0) (V m c main_arg3) (V m c main_v27) :=
  (dats m 0 c).arrAt_eq_of_cover 3 (GT (V m c main_arg0) (V m c main_arg3) (V m c main_v27)) (fun t _ => flushed_eq m c t) cover

/-- The result array after the run is the kernel's whole-array function of the four argument arrays. -/
theorem final (c : Dev nD) : (dats m 0 c).arrAt 3 cfg0.N
    = Cert.KdRbf.Gk (m ((c : Thread nD τ).loc main_arg0)) (m ((c : Thread nD τ).loc main_arg1)) (m ((c : Thread nD τ).loc main_arg2)) (m ((c : Thread nD τ).loc main_arg3)) := by
  rw [finalV, V_main_arg0, V_main_arg3, Cert.KernelIdeal.HostTable.V_table]
  rfl

/-- The run, read: the result array at the kernel's function of the arguments, the arguments unchanged. -/
theorem run : θ_run defs (onTc (τ := τ) (main (F := Ideal))) ⟨m, fun _ => 0, ρ⟩ fun r => ∀ c : Dev nD,
      r.2.mem ((c : Thread nD τ).loc main_v28) = Cert.KdRbf.Gk (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(((h c).1 3).trans (final m c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c)))⟩)
    (run_main m ρ)

end Cert.KernelIdeal.Fr

end
-- ==== Proof.RefG.lean ====
/-
  The reference, operation by operation, read at one entry of its result: the sentinel word replaced by 0, a negative
  word wrapped by 500, the two row gathers (the start word read signed and clamped into the table), the squared
  distance, the Gaussian weight times the mask, the weights' sum and its guarded denominator, and the weighted mean of
  the gathered displacements — the candidate-wise row formula.
-/
import proofs.«414026_j26345329393933_3_alg».proof.Proof.Spec
import proofs.«414026_j26345329393933_3_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.ReferenceIdeal.RefG

open Cert.ReferenceIdeal Cert.ReferenceIdeal.Gen
open Idealize.ShloMosaic Idealize.ShloMosaic.ValueIdx Idealize.SL.Sem

open Cert.KdRbf

/-! ## The two gathers: which table entry a result entry reads

The gather's operand is a 500 × 3 table, its start indices one word per (point, candidate), its slices one row wide
and three columns long. On the table's row axis the operand index is the start word, read signed and clamped into
[0, 499]; on the column axis it is the result's last coordinate. -/

/-- On the row axis the operand index is the clamped start word. -/
theorem gather_axis0 (idx : IVec S1048576x64x1 32) (y : S1048576x64x3.Idx) :
    (gather_S500x3_S1048576x64x1_S1048576x64x3_2_0_n_n_0_2_13.operandIdx y idx (0 : Fin 2)).val
      = min (idx (ix3 (y 0) (y 1) (0 : Fin 1))).toInt.toNat 499 := by
  show gather_S500x3_S1048576x64x1_S1048576x64x3_2_0_n_n_0_2_13.start y idx 0
      + gather_S500x3_S1048576x64x1_S1048576x64x3_2_0_n_n_0_2_13.batchCoord y 0
      + gather_S500x3_S1048576x64x1_S1048576x64x3_2_0_n_n_0_2_13.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S500x3_S1048576x64x1_S1048576x64x3_2_0_n_n_0_2_13.startIndexMap from List.mem_singleton.mpr rfl)]
  have hsi : gather_S500x3_S1048576x64x1_S1048576x64x3_2_0_n_n_0_2_13.siIdx y ⟨List.idxOf (0 : Fin 2) gather_S500x3_S1048576x64x1_S1048576x64x3_2_0_n_n_0_2_13.startIndexMap,
      List.idxOf_lt_length_iff.2 (List.mem_singleton.mpr rfl)⟩ = ix3 (y 0) (y 1) (0 : Fin 1) := by
    funext b; refine Fin.ext ?_
    match b with
    | ⟨0, _⟩ => rfl
    | ⟨1, _⟩ => rfl
    | ⟨2, _⟩ => rfl
  rw [hsi]
  rfl

/-- On the column axis the operand index is the result's last coordinate. -/
theorem gather_axis1 (idx : IVec S1048576x64x1 32) (y : S1048576x64x3.Idx) :
    (gather_S500x3_S1048576x64x1_S1048576x64x3_2_0_n_n_0_2_13.operandIdx y idx (1 : Fin 2)).val = (y 2).val := by
  show gather_S500x3_S1048576x64x1_S1048576x64x3_2_0_n_n_0_2_13.start y idx 1
      + gather_S500x3_S1048576x64x1_S1048576x64x3_2_0_n_n_0_2_13.batchCoord y 1
      + gather_S500x3_S1048576x64x1_S1048576x64x3_2_0_n_n_0_2_13.offCoord y 1 = _
  rw [GatherDims.batchCoord_eq_zero _ _ _ List.not_mem_nil]
  unfold GatherDims.start
  rw [dif_neg (show ¬ (1 : Fin 2) ∈ gather_S500x3_S1048576x64x1_S1048576x64x3_2_0_n_n_0_2_13.startIndexMap by decide)]
  simp only [Nat.add_zero, Nat.zero_add]
  unfold GatherDims.offCoord
  rw [dif_pos (show (1 : Fin 2) ∈ gather_S500x3_S1048576x64x1_S1048576x64x3_2_0_n_n_0_2_13.sKept by decide)]
  rfl

/-- The gather at (n, k, j): the table's row named by the start word at (n, k), read signed and clamped into the
    table, at column j. -/
theorem gather_apply {α : Type} (x : S500x3.Idx → α) (idx : IVec S1048576x64x1 32) (n : Fin 1048576) (k : Fin 64) (j : Fin 3) :
    Host.gather gather_S500x3_S1048576x64x1_S1048576x64x3_2_0_n_n_0_2_13 x idx (ix3 n k j)
      = x (ix2 (⟨min (idx (ix3 n k (0 : Fin 1))).toInt.toNat 499, by omega⟩ : Fin 500) j) := by
  unfold Host.gather
  congr 1
  funext a
  refine Fin.ext ?_
  match a with
  | ⟨0, _⟩ => exact gather_axis0 idx (ix3 n k j)
  | ⟨1, _⟩ => exact gather_axis1 idx (ix3 n k j)

/-! ## Words: the mask bit and the row a candidate word reads -/

/-- The converted mask bit: 0 for the "no neighbour" word, else 1. -/
theorem mask_word (w : BitVec 32) :
    FloatOps.uitofp (F := Ideal) .f32 (IntOp.cmpi .ne w 500#32) = refMask w := by
  show (((IntOp.cmpi .ne w 500#32).toNat : ℝ) : EReal) = _
  unfold refMask IntOp.cmpi
  by_cases h : w = 500#32
  · simp [h]
  · simp [h]

/-- A select on "the word is not 500" keeps the word, and gives 0 for 500. -/
theorem select_ne500 (w : BitVec 32) :
    Scalar.select (IntOp.cmpi .ne w 500#32) w 0#32 = (if w = 500#32 then 0#32 else w) := by
  unfold Scalar.select IntOp.cmpi
  by_cases h : w = 500#32
  · subst h; rfl
  · have hb : (w != 500#32) = true := bne_iff_ne.mpr h
    rw [if_neg h]
    show (if BitVec.ofBool (w != 500#32) = 1#1 then w else 0#32) = w
    rw [hb]; rfl

/-- A select on "the word is negative" adds 500 to a negative word and keeps any other. -/
theorem select_neg_wrap (s : BitVec 32) :
    Scalar.select (IntOp.cmpi .slt s 0#32) (IntOp.addi s 500#32) s = (if s.toInt < 0 then s + 500#32 else s) := by
  unfold Scalar.select IntOp.cmpi IntOp.addi
  by_cases h : s.toInt < 0
  · have hb : s.slt 0#32 = true := by simp [BitVec.slt, h]
    rw [if_pos h]
    show (if BitVec.ofBool (s.slt 0#32) = 1#1 then s + 500#32 else s) = _
    rw [hb]; rfl
  · have hb : s.slt 0#32 = false := by simp [BitVec.slt, h]
    rw [if_neg h]
    show (if BitVec.ofBool (s.slt 0#32) = 1#1 then s + 500#32 else s) = _
    rw [hb]; rfl

/-- The selected, wrapped and clamped word is the row the specification reads. -/
theorem row_word (w : BitVec 32) :
    min (Scalar.select (IntOp.cmpi .slt (Scalar.select (IntOp.cmpi .ne w 500#32) w 0#32) 0#32)
        (IntOp.addi (Scalar.select (IntOp.cmpi .ne w 500#32) w 0#32) 500#32)
        (Scalar.select (IntOp.cmpi .ne w 500#32) w 0#32)).toInt.toNat 499 = (safeRow w).val := by
  rw [select_ne500, select_neg_wrap]
  rfl

/-- A sum below the threshold is replaced by one: the compare and select are the specification's denominator. -/
theorem den_word (s : EReal) :
    Scalar.select (FloatOps.cmpf (F := Ideal) (φ := .f32) .olt s (FloatOps.ofBits (F := Ideal) .f32 0x3727C5AC#32))
      (FloatOps.ofBits (F := Ideal) .f32 0x3F800000#32) s = den s := by
  show Scalar.select (Ideal.cmp .olt s thr) one s = _
  unfold den Scalar.select Ideal.cmp
  by_cases h : s < thr
  · rw [if_pos h]
    show (if BitVec.ofBool (decide (s < thr)) = 1#1 then one else s) = one
    rw [decide_eq_true h]; rfl
  · rw [if_neg h]
    show (if BitVec.ofBool (decide (s < thr)) = 1#1 then one else s) = s
    rw [decide_eq_false h]; rfl

/-! ## The layout operations' index maps, at coordinates -/

theorem idx8 (n : Fin 1048576) (k : Fin 64) (z : Fin 1) : Read.idx_main_v8 (ix3 n k z) = ix2 n k :=
  funext fun a => Fin.ext (by match a with | ⟨0, _⟩ => rfl | ⟨1, _⟩ => rfl)
theorem idx15 (n : Fin 1048576) (k : Fin 64) (z : Fin 1) : Read.idx_main_v15 (ix3 n k z) = ix2 n k :=
  funext fun a => Fin.ext (by match a with | ⟨0, _⟩ => rfl | ⟨1, _⟩ => rfl)
theorem idx1718 (n : Fin 1048576) (k : Fin 64) (j : Fin 3) : Read.idx_main_v17 (Read.idx_main_v18 (ix3 n k j)) = ix2 n j :=
  funext fun a => Fin.ext (by match a with | ⟨0, _⟩ => rfl | ⟨1, _⟩ => rfl)
theorem idx21 (n : Fin 1048576) (k : Fin 64) (j : Fin 3) : Read.idx_main_v21 (ix2 n k) j = ix3 n k j :=
  funext fun a => Fin.ext (by match a with | ⟨0, _⟩ => rfl | ⟨1, _⟩ => rfl | ⟨2, _⟩ => rfl)
theorem idx28 (n : Fin 1048576) (k : Fin 64) : Read.idx_main_v28 (ix1 n) k = ix2 n k :=
  funext fun a => Fin.ext (by match a with | ⟨0, _⟩ => rfl | ⟨1, _⟩ => rfl)
theorem idx29 (n : Fin 1048576) (z : Fin 1) : Read.idx_main_v29 (ix2 n z) = ix1 n :=
  funext fun a => Fin.ext (by match a with | ⟨0, _⟩ => rfl)
theorem idx34 (n : Fin 1048576) (k : Fin 64) : Read.idx_main_v34 (ix2 n k) = ix2 n (0 : Fin 1) :=
  funext fun a => Fin.ext (by match a with | ⟨0, _⟩ => rfl | ⟨1, _⟩ => rfl)
theorem idx36 (n : Fin 1048576) (k : Fin 64) (z : Fin 1) : Read.idx_main_v36 (ix3 n k z) = ix2 n k :=
  funext fun a => Fin.ext (by match a with | ⟨0, _⟩ => rfl | ⟨1, _⟩ => rfl)
theorem idx37 (n : Fin 1048576) (k : Fin 64) (j : Fin 3) : Read.idx_main_v37 (ix3 n k j) = ix3 n k (0 : Fin 1) :=
  funext fun a => Fin.ext (by match a with | ⟨0, _⟩ => rfl | ⟨1, _⟩ => rfl | ⟨2, _⟩ => rfl)
theorem idx39 (n : Fin 1048576) (j : Fin 3) (k : Fin 64) : Read.idx_main_v39 (ix2 n j) k = ix3 n k j :=
  funext fun a => Fin.ext (by match a with | ⟨0, _⟩ => rfl | ⟨1, _⟩ => rfl | ⟨2, _⟩ => rfl)

/-! ## The operations at a point, from the inside out -/

/-- The row word the first gather starts from at (n, k), clamped, is the specification's row of the candidate word. -/
theorem v7_row (x3 : ShIds.Idx → BitVec 32) (n : Fin 1048576) (k : Fin 64) :
    min (Read.val_main_v7 (F := Ideal) x3 (ix2 n k)).toInt.toNat 499 = (safeRow (x3 (ix2 n k))).val := by
  rw [Read.val_main_v7_apply, Read.val_main_v4_apply, Read.val_main_v6_apply, Read.val_main_v3_apply, Read.val_main_c_1_apply,
    Read.val_main_v5_apply, Read.val_main_c_2_apply, Read.val_main_v2_apply, Read.val_main_v1_apply, Read.val_main_v0_apply,
    Read.val_main_c_apply, Read.val_main_call0_v1_apply, Read.val_main_call0_v0_apply, Read.val_main_c_0_apply]
  exact row_word _

/-- The same for the second gather's row word. -/
theorem v14_row (x3 : ShIds.Idx → BitVec 32) (n : Fin 1048576) (k : Fin 64) :
    min (Read.val_main_v14 (F := Ideal) x3 (ix2 n k)).toInt.toNat 499 = (safeRow (x3 (ix2 n k))).val := by
  rw [Read.val_main_v14_apply, Read.val_main_v11_apply, Read.val_main_v13_apply, Read.val_main_v10_apply, Read.val_main_c_3_apply,
    Read.val_main_v12_apply, Read.val_main_c_4_apply, Read.val_main_v2_apply, Read.val_main_v1_apply, Read.val_main_v0_apply,
    Read.val_main_c_apply, Read.val_main_call0_v1_apply, Read.val_main_call0_v0_apply, Read.val_main_c_0_apply]
  exact row_word _

/-- The gathered control point of candidate k of point n, coordinate j. -/
theorem v9_at (x1 : ShTbl.Idx → EReal) (x3 : ShIds.Idx → BitVec 32) (n : Fin 1048576) (k : Fin 64) (j : Fin 3) :
    Read.val_main_v9 (F := Ideal) x1 x3 (ix3 n k j) = x1 (ix2 (safeRow (x3 (ix2 n k))) j) := by
  unfold Read.val_main_v9
  refine (gather_apply x1 (Read.val_main_v8 (F := Ideal) x3) n k j).trans ?_
  refine congrArg (fun r => x1 (ix2 r j)) (Fin.ext ?_)
  show min (Read.val_main_v8 (F := Ideal) x3 (ix3 n k (0 : Fin 1))).toInt.toNat 499 = _
  rw [Read.val_main_v8_apply, idx8]
  exact v7_row x3 n k

/-- The gathered displacement of candidate k of point n, coordinate j. -/
theorem v16_at (x2 : ShTbl.Idx → EReal) (x3 : ShIds.Idx → BitVec 32) (n : Fin 1048576) (k : Fin 64) (j : Fin 3) :
    Read.val_main_v16 (F := Ideal) x2 x3 (ix3 n k j) = x2 (ix2 (safeRow (x3 (ix2 n k))) j) := by
  unfold Read.val_main_v16
  refine (gather_apply x2 (Read.val_main_v15 (F := Ideal) x3) n k j).trans ?_
  refine congrArg (fun r => x2 (ix2 r j)) (Fin.ext ?_)
  show min (Read.val_main_v15 (F := Ideal) x3 (ix3 n k (0 : Fin 1))).toInt.toNat 499 = _
  rw [Read.val_main_v15_apply, idx15]
  exact v14_row x3 n k

/-- A squared coordinate difference between point n and its candidate k's control point. -/
theorem v20_at (x0 : ShPts.Idx → EReal) (x1 : ShTbl.Idx → EReal) (x3 : ShIds.Idx → BitVec 32) (n : Fin 1048576) (k : Fin 64) (j : Fin 3) :
    Read.val_main_v20 (F := Ideal) x0 x1 x3 (ix3 n k j)
      = (x0 (ix2 n j) - x1 (ix2 (safeRow (x3 (ix2 n k))) j)) * (x0 (ix2 n j) - x1 (ix2 (safeRow (x3 (ix2 n k))) j)) := by
  rw [Read.val_main_v20_apply, Read.val_main_v19_apply, Read.val_main_v18_apply, Read.val_main_v17_apply, idx1718, v9_at]
  rfl

/-- Candidate k's weight for point n. -/
theorem v27_at (x0 : ShPts.Idx → EReal) (x1 : ShTbl.Idx → EReal) (x3 : ShIds.Idx → BitVec 32) (n : Fin 1048576) (k : Fin 64) :
    Read.val_main_v27 (F := Ideal) x0 x1 x3 (ix2 n k) = rWeight (ptRow x0 n) x1 (x3 (ix2 n k)) := by
  rw [Read.val_main_v27_apply, Read.val_main_v25_apply, Read.val_main_v24_apply, Read.val_main_v22_apply, Read.val_main_v21_apply,
    Read.val_main_cst_apply, Read.val_main_v23_apply, Read.val_main_cst_5_apply, Read.val_main_v26_apply, Read.val_main_v1_apply,
    Read.val_main_v0_apply, Read.val_main_c_apply, mask_word]
  simp only [idx21, v20_at, Ideal.ofBits_def, Ideal.ofBits_zero_f32, Ideal.mulf_def, Ideal.hostUnary_exp_def, Ideal.hostDivf_def,
    Ideal.hostNegf_def, Ideal.negf_def]
  rfl

/-- The weights' sum for point n. -/
theorem v28_at (x0 : ShPts.Idx → EReal) (x1 : ShTbl.Idx → EReal) (x3 : ShIds.Idx → BitVec 32) (n : Fin 1048576) :
    Read.val_main_v28 (F := Ideal) x0 x1 x3 (ix1 n) = rSum (ptRow x0 n) x1 (idRow x3 n) := by
  rw [Read.val_main_v28_apply, Read.val_main_cst_6_apply]
  simp only [idx28, v27_at, Ideal.ofBits_def, Ideal.ofBits_zero_f32]
  rfl

/-- The normalising denominator for point n. -/
theorem v33_at (x0 : ShPts.Idx → EReal) (x1 : ShTbl.Idx → EReal) (x3 : ShIds.Idx → BitVec 32) (n : Fin 1048576) (z : Fin 1) :
    Read.val_main_v33 (F := Ideal) x0 x1 x3 (ix2 n z) = den (rSum (ptRow x0 n) x1 (idRow x3 n)) := by
  rw [Read.val_main_v33_apply, Read.val_main_v31_apply, Read.val_main_v29_apply, Read.val_main_v30_apply, Read.val_main_cst_7_apply,
    Read.val_main_v32_apply, Read.val_main_cst_8_apply, idx29, v28_at]
  exact den_word _

/-- Candidate k's normalised weight for point n. -/
theorem v35_at (x0 : ShPts.Idx → EReal) (x1 : ShTbl.Idx → EReal) (x3 : ShIds.Idx → BitVec 32) (n : Fin 1048576) (k : Fin 64) :
    Read.val_main_v35 (F := Ideal) x0 x1 x3 (ix2 n k)
      = Ideal.div (rWeight (ptRow x0 n) x1 (x3 (ix2 n k))) (den (rSum (ptRow x0 n) x1 (idRow x3 n))) := by
  rw [Read.val_main_v35_apply, Read.val_main_v34_apply, idx34, v33_at, v27_at]
  rfl

/-- Candidate k's term of the weighted mean for point n, coordinate j. -/
theorem v38_at (x0 : ShPts.Idx → EReal) (x1 x2 : ShTbl.Idx → EReal) (x3 : ShIds.Idx → BitVec 32) (n : Fin 1048576) (k : Fin 64) (j : Fin 3) :
    Read.val_main_v38 (F := Ideal) x0 x1 x2 x3 (ix3 n k j)
      = Ideal.div (rWeight (ptRow x0 n) x1 (x3 (ix2 n k))) (den (rSum (ptRow x0 n) x1 (idRow x3 n))) * x2 (ix2 (safeRow (x3 (ix2 n k))) j) := by
  rw [Read.val_main_v38_apply, Read.val_main_v37_apply, idx37, Read.val_main_v36_apply, idx36, v35_at, v16_at]
  rfl

/-- The reference's result, operation by operation, is the candidate-wise row formula at every index. -/
theorem ref_eq (x0 : Cert.KdRbf.ShPts.Idx → EReal) (x1 x2 : Cert.KdRbf.ShTbl.Idx → EReal) (x3 : Cert.KdRbf.ShIds.Idx → BitVec 32) :
    Cert.ReferenceIdeal.Read.val_main_v39 (F := Ideal) x0 x1 x2 x3 = Cert.KdRbf.Gr x0 x1 x2 x3 := by
  funext i
  obtain ⟨n, j, rfl⟩ : ∃ n j, i = ix2 n j := ⟨i 0, i 1, eq_ix2 i⟩
  rw [Read.val_main_v39_apply, Read.val_main_cst_9_apply]
  simp only [idx39, v38_at, Ideal.ofBits_def, Ideal.ofBits_zero_f32]
  rfl

end Cert.ReferenceIdeal.RefG

end
-- ==== Proof.Algebra.lean ====
/-
  The law that joins the two programs, one output row at a time, over the reals.

  Summing count × f over the 512 columns of the merged table is summing f over the 64 candidates' own columns
  (every candidate word is at most 500, so it names exactly one column); a column below 500 carries the table's row
  and flag 1, column 500 carries flag 0 exactly as the reference's mask does; the kernel's factor 1/200 is the
  reference's division by 200; and the denominator — the weights' sum, or one when that sum is below the positive
  threshold — is a nonzero real, so dividing the sum by it is summing the quotients.
-/
import proofs.«414026_j26345329393933_3_alg».proof.Proof.Spec

noncomputable section

open scoped BigOperators

namespace Cert.KdRbf

open Idealize.ShloMosaic Idealize.ShloMosaic.ValueIdx

/-! ## The three literal words, read once -/

/-- The reference's divisor is the real 200. -/
theorem c200_eq : c200 = ((200 : ℝ) : EReal) := by
  simp [c200, Ideal.ofBits, Ideal.ieee, -EReal.coe_mul]; norm_num

/-- The replacement denominator is the real 1. -/
theorem one_eq : one = ((1 : ℝ) : EReal) := by
  simp [one, Ideal.ofBits, Ideal.ieee, -EReal.coe_mul]; norm_num

/-- The threshold is a positive real (10995116 · 2⁻⁴⁰). -/
theorem thr_eq : ∃ t : ℝ, thr = (t : EReal) ∧ 0 < t := by
  have h : thr = (((10995116 : ℝ) * (2 : ℝ) ^ (-40 : ℤ) : ℝ) : EReal) := by
    simp [thr, Ideal.ofBits, Ideal.ieee, -EReal.coe_mul]
  exact ⟨_, h, by positivity⟩

/-! ## Real numbers inside the extended reals -/

/-- The embedding of the reals commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The denominator over the reals, the threshold a parameter. -/
def denR (t s : ℝ) : ℝ := if s < t then 1 else s

theorem den_coe {t : ℝ} (ht : thr = (t : EReal)) (s : ℝ) : den (s : EReal) = ((denR t s : ℝ) : EReal) := by
  unfold den denR
  rw [ht, one_eq]
  by_cases h : s < t
  · rw [if_pos (by exact_mod_cast h), if_pos h]
  · rw [if_neg (by exact_mod_cast h), if_neg h]

/-- Below a positive threshold the denominator is 1, else it is at least the threshold: never zero. -/
theorem denR_ne {t : ℝ} (ht : 0 < t) (s : ℝ) : denR t s ≠ 0 := by
  unfold denR
  by_cases h : s < t
  · rw [if_pos h]; exact one_ne_zero
  · rw [if_neg h]; exact ne_of_gt (lt_of_lt_of_le ht (not_lt.mp h))

/-! ## Counting: a sum over columns weighted by the counts is a sum over candidates -/

def hotR (w : BitVec 32) (q : Fin 512) : ℝ := if w = BitVec.ofNat 32 q.val then 1 else 0

theorem hot_coe (w : BitVec 32) (q : Fin 512) : hot w q = ((hotR w q : ℝ) : EReal) := by
  unfold hot hotR
  by_cases h : w = BitVec.ofNat 32 q.val
  · rw [if_pos h, if_pos h, EReal.coe_one]
  · rw [if_neg h, if_neg h, EReal.coe_zero]

def cntR (ids : Fin 64 → BitVec 32) (q : Fin 512) : ℝ := ∑ k : Fin 64, hotR (ids k) q

theorem kCount_coe (ids : Fin 64 → BitVec 32) (q : Fin 512) : kCount ids q = ((cntR ids q : ℝ) : EReal) := by
  unfold kCount cntR
  rw [coe_sum]
  exact Finset.sum_congr rfl (fun k _ => hot_coe _ _)

/-- A word below 512 names exactly one column: its own value. -/
theorem hot_iff (w : BitVec 32) (hw : w.toNat < 512) (q : Fin 512) :
    w = BitVec.ofNat 32 q.val ↔ q = ⟨w.toNat, hw⟩ := by
  constructor
  · intro h
    apply Fin.ext
    show q.val = w.toNat
    rw [h, BitVec.toNat_ofNat]
    have := q.isLt
    omega
  · intro h
    apply BitVec.eq_of_toNat_eq
    rw [BitVec.toNat_ofNat, h]
    show w.toNat = w.toNat % 2 ^ 32
    have := w.isLt
    omega

theorem hotR_sum (w : BitVec 32) (hw : w.toNat < 512) (g : Fin 512 → ℝ) :
    ∑ q : Fin 512, hotR w q * g q = g ⟨w.toNat, hw⟩ := by
  have h : ∀ q : Fin 512, hotR w q * g q = if q = ⟨w.toNat, hw⟩ then g q else 0 := by
    intro q
    unfold hotR
    by_cases hq : q = ⟨w.toNat, hw⟩
    · rw [if_pos ((hot_iff w hw q).2 hq), if_pos hq, one_mul]
    · rw [if_neg (fun e => hq ((hot_iff w hw q).1 e)), if_neg hq, zero_mul]
  rw [Finset.sum_congr rfl (fun q _ => h q), Finset.sum_ite_eq']
  simp

/-- The column a candidate names. -/
def col (ids : Fin 64 → BitVec 32) (hI : ∀ k, (ids k).toNat ≤ 500) (k : Fin 64) : Fin 512 :=
  ⟨(ids k).toNat, by have := hI k; omega⟩

theorem count_sum (ids : Fin 64 → BitVec 32) (hI : ∀ k, (ids k).toNat ≤ 500) (g : Fin 512 → ℝ) :
    ∑ q : Fin 512, cntR ids q * g q = ∑ k : Fin 64, g (col ids hI k) := by
  unfold cntR
  simp_rw [Finset.sum_mul]
  rw [Finset.sum_comm]
  exact Finset.sum_congr rfl (fun k _ => hotR_sum (ids k) _ g)

/-! ## The merged table, entry by entry -/

section Table
variable (C D : ShTbl.Idx → EReal) (q : Fin 512)

theorem tab_row0 : tab C D (ix2 (0 : Fin 8) q) = padded C q 0 := rfl
theorem tab_row1 : tab C D (ix2 (1 : Fin 8) q) = padded C q 1 := rfl
theorem tab_row2 : tab C D (ix2 (2 : Fin 8) q) = padded C q 2 := rfl
theorem tab_row6 : tab C D (ix2 (6 : Fin 8) q) = if q.val < 500 then 1 else 0 := rfl
theorem tab_dRow (j : Fin 3) : tab C D (ix2 (dRow j) q) = padded D q j := by
  fin_cases j <;> rfl

end Table

/-! ## The weights over the reals -/

section Weights
variable (pr : Fin 3 → ℝ) (Cr Dr : ShTbl.Idx → ℝ)

/-- Squared distance from the point to control point r. -/
def distR (r : Fin 500) : ℝ :=
  ((pr 0 - Cr (ix2 r 0)) * (pr 0 - Cr (ix2 r 0)) + (pr 1 - Cr (ix2 r 1)) * (pr 1 - Cr (ix2 r 1)))
    + (pr 2 - Cr (ix2 r 2)) * (pr 2 - Cr (ix2 r 2))

/-- A column's weight: the Gaussian on a table column, 0 on a padding column. -/
def wR (q : Fin 512) : ℝ :=
  if h : q.val < 500 then Real.exp ((0 - distR pr Cr ⟨q.val, h⟩) * (1 / 200)) else 0

/-- A column's displacement coordinate: the table's on a table column, 0 on a padding column. -/
def dR (q : Fin 512) (j : Fin 3) : ℝ := if h : q.val < 500 then Dr (ix2 ⟨q.val, h⟩ j) else 0

variable {p : Fin 3 → EReal} {C D : ShTbl.Idx → EReal}
variable (hp : ∀ j, p j = (pr j : EReal)) (hC : ∀ i, C i = (Cr i : EReal)) (hD : ∀ i, D i = (Dr i : EReal))
include hp hC in
theorem kDist_coe (q : Fin 512) (h : q.val < 500) :
    kDist p (tab C D) q = ((distR pr Cr ⟨q.val, h⟩ : ℝ) : EReal) := by
  unfold kDist distR
  rw [tab_row0, tab_row1, tab_row2]
  simp only [padded, dif_pos h, hp, hC]
  simp only [EReal.coe_mul, EReal.coe_add, EReal.coe_sub]

include hp hC in
theorem kWeight_coe (q : Fin 512) : kWeight p (tab C D) q = ((wR pr Cr q : ℝ) : EReal) := by
  unfold kWeight wR
  rw [tab_row6]
  by_cases h : q.val < 500
  · rw [if_pos h, dif_pos h, mul_one, kDist_coe pr Cr hp hC q h,
      ← EReal.coe_zero, ← EReal.coe_sub, ← EReal.coe_mul, Ideal.exp_coe]
  · rw [if_neg h, dif_neg h, mul_zero, EReal.coe_zero]

include hp hC in
theorem kCW_coe (ids : Fin 64 → BitVec 32) (q : Fin 512) :
    kCW p ids (tab C D) q = ((cntR ids q * wR pr Cr q : ℝ) : EReal) := by
  unfold kCW
  rw [kCount_coe, kWeight_coe pr Cr hp hC, EReal.coe_mul]

include hD in
theorem padded_coe (q : Fin 512) (j : Fin 3) : padded D q j = ((dR Dr q j : ℝ) : EReal) := by
  unfold padded dR
  by_cases h : q.val < 500
  · rw [dif_pos h, dif_pos h, hD]
  · rw [dif_neg h, dif_neg h, EReal.coe_zero]

include hp hC in
theorem kSum_coe (ids : Fin 64 → BitVec 32) (hI : ∀ k, (ids k).toNat ≤ 500) :
    kSum p ids (tab C D) = ((∑ k : Fin 64, wR pr Cr (col ids hI k) : ℝ) : EReal) := by
  unfold kSum
  rw [Finset.sum_congr rfl (fun q _ => kCW_coe pr Cr hp hC ids q), ← coe_sum, count_sum ids hI]

include hp hC hD in
theorem kNum_coe (ids : Fin 64 → BitVec 32) (hI : ∀ k, (ids k).toNat ≤ 500) (j : Fin 3) :
    ∑ q : Fin 512, kCW p ids (tab C D) q * tab C D (ix2 (dRow j) q)
      = ((∑ k : Fin 64, wR pr Cr (col ids hI k) * dR Dr (col ids hI k) j : ℝ) : EReal) := by
  have h : ∀ q : Fin 512, kCW p ids (tab C D) q * tab C D (ix2 (dRow j) q)
      = ((cntR ids q * (wR pr Cr q * dR Dr q j) : ℝ) : EReal) := by
    intro q
    rw [kCW_coe pr Cr hp hC, tab_dRow, padded_coe Dr hD, ← EReal.coe_mul, mul_assoc]
  rw [Finset.sum_congr rfl (fun q _ => h q), ← coe_sum,
    count_sum ids hI (fun q => wR pr Cr q * dR Dr q j)]

/-! ## The reference's candidates -/

/-- A word below 500 reads its own row. -/
theorem safeRow_lt (w : BitVec 32) (h : w.toNat < 500) : safeRow w = ⟨w.toNat, h⟩ := by
  have hne : w ≠ 500#32 := by
    intro e; rw [e] at h; simp at h
  have hint : w.toInt = (w.toNat : Int) := BitVec.toInt_eq_toNat_of_lt (by omega)
  have hnn : ¬ (w.toInt < 0) := by rw [hint]; omega
  unfold safeRow
  simp only [if_neg hne, if_neg hnn]
  apply Fin.ext
  show min w.toInt.toNat 499 = w.toNat
  rw [hint]
  omega

include hp hC in
theorem rWeight_coe (w : BitVec 32) (q : Fin 512) (hq : q.val = w.toNat) (hw : w.toNat ≤ 500) :
    rWeight p C w = ((wR pr Cr q : ℝ) : EReal) := by
  unfold rWeight wR
  by_cases h : q.val < 500
  · have hs : safeRow w = ⟨q.val, h⟩ := by
      rw [safeRow_lt w (by omega)]; exact Fin.ext hq.symm
    have hm : refMask w = 1 := by
      unfold refMask
      rw [if_neg]
      intro e; rw [e] at hq; simp at hq; omega
    rw [dif_pos h, hs, hm, mul_one, c200_eq, Ideal.div_coe (by norm_num), Fin.sum_univ_three]
    simp only [hp, hC]
    rw [show (0 - distR pr Cr ⟨q.val, h⟩) * (1 / 200) = (-(0 + distR pr Cr ⟨q.val, h⟩)) * (1 / 200) by ring,
      ← Ideal.exp_coe]
    refine congrArg Ideal.exp ?_
    unfold distR
    simp only [EReal.coe_mul, EReal.coe_neg, EReal.coe_add, EReal.coe_zero, EReal.coe_sub]
  · have hm : refMask w = 0 := by
      unfold refMask
      rw [if_pos]
      apply BitVec.eq_of_toNat_eq
      simp; omega
    rw [dif_neg h, hm, mul_zero, EReal.coe_zero]

include hp hC in
theorem rSum_coe (ids : Fin 64 → BitVec 32) (hI : ∀ k, (ids k).toNat ≤ 500) :
    rSum p C ids = ((∑ k : Fin 64, wR pr Cr (col ids hI k) : ℝ) : EReal) := by
  unfold rSum
  rw [zero_add, coe_sum]
  exact Finset.sum_congr rfl (fun k _ => rWeight_coe pr Cr hp hC (ids k) (col ids hI k) rfl (hI k))

/-- A candidate's weight times the displacement of its column is its weight times the displacement it reads:
    a table row reads itself, and "no neighbour" weighs 0. -/
theorem w_mul_d (ids : Fin 64 → BitVec 32) (hI : ∀ k, (ids k).toNat ≤ 500) (j : Fin 3) (k : Fin 64) :
    wR pr Cr (col ids hI k) * dR Dr (col ids hI k) j
      = wR pr Cr (col ids hI k) * Dr (ix2 (safeRow (ids k)) j) := by
  by_cases h : (col ids hI k).val < 500
  · have h' : (ids k).toNat < 500 := h
    have e : dR Dr (col ids hI k) j = Dr (ix2 (safeRow (ids k)) j) := by
      unfold dR; rw [dif_pos h, safeRow_lt _ h']; rfl
    rw [e]
  · have e : wR pr Cr (col ids hI k) = 0 := by unfold wR; rw [dif_neg h]
    rw [e, zero_mul, zero_mul]

end Weights

/-- Column by column over the merged table, or candidate by candidate over the two tables: one number, when the point
    and the tables hold real numbers and every candidate word is a table row or the "no neighbour" word. -/
theorem row_eq (p : Fin 3 → EReal) (ids : Fin 64 → BitVec 32) (C D : ShTbl.Idx → EReal)
    (hp : ∀ j, ∃ r : ℝ, p j = (r : EReal)) (hC : ∀ i, ∃ r : ℝ, C i = (r : EReal)) (hD : ∀ i, ∃ r : ℝ, D i = (r : EReal))
    (hI : ∀ k, (ids k).toNat ≤ 500) (j : Fin 3) :
    rowSpec p ids (tab C D) j = refRow p ids C D j := by
  choose pr hpr using hp
  choose Cr hCr using hC
  choose Dr hDr using hD
  obtain ⟨t, ht, htpos⟩ := thr_eq
  have hd := denR_ne htpos (∑ k : Fin 64, wR pr Cr (col ids hI k))
  have hL : rowSpec p ids (tab C D) j
      = (((∑ k : Fin 64, wR pr Cr (col ids hI k) * dR Dr (col ids hI k) j)
          * (1 / denR t (∑ k : Fin 64, wR pr Cr (col ids hI k))) : ℝ) : EReal) := by
    unfold rowSpec
    rw [kNum_coe pr Cr Dr hpr hCr hDr ids hI j, kSum_coe pr Cr hpr hCr ids hI, den_coe ht,
      Ideal.div_coe hd, ← EReal.coe_mul]
  have hR : refRow p ids C D j
      = ((∑ k : Fin 64, wR pr Cr (col ids hI k) * (1 / denR t (∑ k : Fin 64, wR pr Cr (col ids hI k)))
          * Dr (ix2 (safeRow (ids k)) j) : ℝ) : EReal) := by
    unfold refRow
    rw [zero_add, rSum_coe pr Cr hpr hCr ids hI, den_coe ht, coe_sum]
    refine Finset.sum_congr rfl (fun k _ => ?_)
    rw [rWeight_coe pr Cr hpr hCr (ids k) (col ids hI k) rfl (hI k), Ideal.div_coe hd, hDr,
      ← EReal.coe_mul, ← EReal.coe_mul]
  rw [hL, hR]
  congr 1
  rw [Finset.sum_mul]
  refine Finset.sum_congr rfl (fun k _ => ?_)
  rw [w_mul_d pr Cr Dr ids hI j k]
  ring

end Cert.KdRbf

end
-- ==== Proof.PreDecode.lean ====
/-
  The precondition, decoded: "|x| < +∞ everywhere" of each float array says every entry is a real number, and
  "0 ≤ w and w ≤ 500 everywhere" (both compares signed) of the candidate words says every word's unsigned value is at
  most 500.
-/
import proofs.«414026_j26345329393933_3_alg».proof.Proof.Spec
import proofs.«414026_j26345329393933_3_alg».proof.Pre_finite_inputs
import proofs.«414026_j26345329393933_3_alg».proof.Proof.Gen.Pre_finite_inputs
import Idealize.ShloMosaic.Lib.ReduceAll
import Idealize.ShloMosaic.Lib.StableHlo.Predicate

noncomputable section

open scoped BigOperators

namespace Cert.KdRbf

open Idealize.ShloMosaic Idealize.ShloMosaic.ValueIdx

/-- The rank-0 shape has one index. -/
instance pre_subsingleton_scalar_idx : Subsingleton Cert.Pre_finite_inputs.S_.Idx := ⟨fun a b => funext fun d => d.elim0⟩

/-- The f32 word 0x7F800000 denotes +∞. -/
theorem pre_inf_word : Ideal.ofBits .f32 0x7F800000#32 = (⊤ : EReal) := by
  simp [Ideal.ofBits, Ideal.ieee]

/-- An extended real whose absolute value max x (-x) lies strictly below +∞ is a real number: at ⊥ and at ⊤ the
    absolute value is ⊤. -/
theorem pre_real_of_abs_lt (x : EReal) (h : Ideal.cmp .olt (max x (-x)) (Ideal.ofBits .f32 0x7F800000#32) = 1#1) :
    ∃ r : ℝ, x = (r : EReal) := by
  rw [pre_inf_word] at h
  simp only [Ideal.cmp, StableHlo.Predicate.ofBool_eq_one_iff, decide_eq_true_eq] at h
  induction x using EReal.rec with
  | bot => simp at h
  | coe r => exact ⟨r, rfl⟩
  | top => simp at h

/-- A 32-bit word that is, read signed, at least 0 and at most 500 has unsigned value at most 500: a word with the
    top bit set reads negative. -/
theorem pre_word_range (w : BitVec 32) (h0 : IntOp.cmpi .sge w 0#32 = 1#1) (h1 : IntOp.cmpi .sle w 500#32 = 1#1) : w.toNat ≤ 500 := by
  simp only [IntOp.cmpi, StableHlo.Predicate.ofBool_eq_one_iff, BitVec.sle, decide_eq_true_eq] at h0 h1
  have e0 : (0#32 : BitVec 32).toInt = 0 := by decide
  have e5 : (500#32 : BitVec 32).toInt = 500 := by decide
  rw [e0, BitVec.toInt_eq_toNat_cond] at h0
  rw [e5, BitVec.toInt_eq_toNat_cond] at h1
  have := w.isLt
  split at h0 <;> omega

/-- What the precondition says of the four argument arrays: the three float arrays hold real numbers, and every
    candidate word lies between 0 and 500. -/
theorem pre_decode [Cert.Pre_finite_inputs.Facts] (P : ShPts.Idx → EReal) (C D : ShTbl.Idx → EReal) (I : ShIds.Idx → BitVec 32)
    (h : Cert.Pre_finite_inputs.fn (F := Ideal) P C D I = fun _ => 1#1) :
    (∀ i, ∃ r : ℝ, P i = (r : EReal)) ∧ (∀ i, ∃ r : ℝ, C i = (r : EReal)) ∧ (∀ i, ∃ r : ℝ, D i = (r : EReal))
      ∧ ∀ i, (I i).toNat ≤ 500 := by
  -- the result's one entry is the conjunction of four reductions by "and", each over a whole array
  have h0 := congrFun h ValueIdx.ix0
  dsimp only [Cert.Pre_finite_inputs.fn, Cert.Pre_finite_inputs.fn_part1] at h0
  obtain ⟨h123, hI⟩ := IntOp.andi_eq_one.1 h0
  obtain ⟨h12, hD⟩ := IntOp.andi_eq_one.1 h123
  obtain ⟨hP, hC⟩ := IntOp.andi_eq_one.1 h12
  refine ⟨fun i => ?_, fun i => ?_, fun i => ?_, fun i => ?_⟩
  · exact pre_real_of_abs_lt (P i) (Host.reduce_andi_all _ _ _ _ _ hP i)
  · exact pre_real_of_abs_lt (C i) (Host.reduce_andi_all _ _ _ _ _ hC i)
  · exact pre_real_of_abs_lt (D i) (Host.reduce_andi_all _ _ _ _ _ hD i)
  · obtain ⟨a, b⟩ := IntOp.andi_eq_one.1 (Host.reduce_andi_all _ _ _ _ _ hI i)
    exact pre_word_range (I i) a b

end Cert.KdRbf

end
-- ==== Proof.lean ====
/-
  A radial-basis interpolation over nearest-neighbour candidates, two ways.

  Each of 1,048,576 points carries 64 candidate words; a word 0 … 499 names a row of the control-point table and of
  the displacement table, the word 500 says "no neighbour".  The reference weighs each candidate by
  exp(-|p - c|² / 200) (a "no neighbour" candidate by 0), sums the weights (a sum below 1e-5 is replaced by one), and
  returns the weighted mean of the candidates' displacement rows.  The kernel lays both tables out as one 8 × 512
  table (columns 500 … 511 padding, a row of validity flags), counts for every column how many of the point's 64
  candidates name it, and sums count × weight × displacement over the 512 columns, 512 points per grid step.

  Both compute one number when the float inputs are finite and every candidate word lies in 0 … 500 — the
  precondition: a word outside that range names no column of the kernel's table, while the reference would still read
  (a wrapped or clamped) table row for it.  The law that joins the two sides is the exchange of the two sums,
  ∑_q #{k : id_k = q} · f q = ∑_k f (id_k), together with distributing the division by the (nonzero, finite)
  denominator over the sum, which is where finiteness is used; the kernel's factor 1/200 is the reference's division
  by 200.

  The three programs' frames: the two kernel programs' by running the body symbolically at a generic grid point under
  the region's launch theorem; the reference's from its run.  The idealization's ledger: the named reciprocal 1/200
  and sixteen round trips through bf16 (the one-hot counts, exact there) that are the identity on extended reals.
-/
import proofs.«414026_j26345329393933_3_alg».proof.Defs
import proofs.«414026_j26345329393933_3_alg».proof.Proof.Gen.Kernel
import proofs.«414026_j26345329393933_3_alg».proof.Proof.Gen.KernelIdeal
import proofs.«414026_j26345329393933_3_alg».proof.Proof.Gen.ReferenceIdeal
import proofs.«414026_j26345329393933_3_alg».proof.Proof.Gen.Pre_finite_inputs
import proofs.«414026_j26345329393933_3_alg».proof.Proof.Gen.ReferenceIdeal.Run
import proofs.«414026_j26345329393933_3_alg».proof.Proof.Gen.ReferenceIdeal.Read
import proofs.«414026_j26345329393933_3_alg».proof.Proof.KFrame
import proofs.«414026_j26345329393933_3_alg».proof.Proof.KIBlocks
import proofs.«414026_j26345329393933_3_alg».proof.Proof.RefG
import proofs.«414026_j26345329393933_3_alg».proof.Proof.Algebra
import proofs.«414026_j26345329393933_3_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger: the constant 0.005 named 1/200, and eight pairs of bf16 round trips (a chunk's one-hot block and its
    column counts), each the identity on extended reals. -/
theorem preserves : Cert.preserves_Kernel_KernelIdeal :=
  ⟨IdealRules.named_const.statement Cert.KernelIdeal.κ "inv_200" .f32 0x3BA3D70A#32 ((1 / 200 : ℝ) : EReal) rfl,
    IdealRules.truncf_extf.statement Cert.KernelIdeal.S512x8x512 .f32 .bf16,
    IdealRules.truncf_extf.statement Cert.KernelIdeal.S512x512 .f32 .bf16,
    IdealRules.truncf_extf.statement Cert.KernelIdeal.S512x8x512 .f32 .bf16,
    IdealRules.truncf_extf.statement Cert.KernelIdeal.S512x512 .f32 .bf16,
    IdealRules.truncf_extf.statement Cert.KernelIdeal.S512x8x512 .f32 .bf16,
    IdealRules.truncf_extf.statement Cert.KernelIdeal.S512x512 .f32 .bf16,
    IdealRules.truncf_extf.statement Cert.KernelIdeal.S512x8x512 .f32 .bf16,
    IdealRules.truncf_extf.statement Cert.KernelIdeal.S512x512 .f32 .bf16,
    IdealRules.truncf_extf.statement Cert.KernelIdeal.S512x8x512 .f32 .bf16,
    IdealRules.truncf_extf.statement Cert.KernelIdeal.S512x512 .f32 .bf16,
    IdealRules.truncf_extf.statement Cert.KernelIdeal.S512x8x512 .f32 .bf16,
    IdealRules.truncf_extf.statement Cert.KernelIdeal.S512x512 .f32 .bf16,
    IdealRules.truncf_extf.statement Cert.KernelIdeal.S512x8x512 .f32 .bf16,
    IdealRules.truncf_extf.statement Cert.KernelIdeal.S512x512 .f32 .bf16,
    IdealRules.truncf_extf.statement Cert.KernelIdeal.S512x8x512 .f32 .bf16,
    IdealRules.truncf_extf.statement Cert.KernelIdeal.S512x512 .f32 .bf16⟩

/-- Both runs end with the result array at one function of the arguments: the kernel's at the column-wise formula
    (the blocks' cover), the reference's at the candidate-wise formula (operation by operation), equal row by row
    under the precondition. -/
theorem algebraic : Cert.algebraic_KernelIdeal_ReferenceIdeal := by
  intro m ρ m' ρ' hpre hagree
  refine ⟨fun c => Cert.KdRbf.Gk (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), Cert.KernelIdeal.Fr.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v39_eq, Cert.ReferenceIdeal.RefG.ref_eq,
    (hagree c).1, (hagree c).2.1, (hagree c).2.2.1, (hagree c).2.2.2]
  obtain ⟨hP, hC, hD, hI⟩ := Cert.KdRbf.pre_decode _ _ _ _ (hpre c)
  funext i
  exact (Cert.KdRbf.row_eq _ _ _ _ (fun j => hP _) hC hD (fun k => hI _) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
